-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_v33 : IVec S_ 1) : IVec S_ 1 :=
  let main_c_12 : IVec S_ 32 := constantI S_ 32 0#32
  let main_v34 : IVec S2x800000 32 := broadcastInDim S2x800000 ![] bcast_S_S2x800000 main_c_12
  let main_v35 : IVec S2x800000 1 := cmpi .sge main_arg1 main_v34
  let main_c_13 : IVec S_ 32 := constantI S_ 32 50000#32
  let main_v36 : IVec S2x800000 32 := broadcastInDim S2x800000 ![] bcast_S_S2x800000 main_c_13
  let main_v37 : IVec S2x800000 1 := cmpi .slt main_arg1 main_v36
  let main_v38 : IVec S2x800000 1 := andi main_v35 main_v37
  let main_c_14 : IVec S_ 1 := constantI S_ 1 1#1
  let main_v39 : IVec S_ 1 := (fun x v => Host.reduce IntOp.andi x v reducesTo_S2x800000_S_d0_1 h_S_) main_v38 main_c_14
  let main_v40 : IVec S_ 1 := andi main_v33 main_v39
  main_v40

def fn_part1 {F : FTy → Type} [FloatOps F] (main_arg1 : IVec S2x800000 32) (main_arg5 : FVec F S64 .f32) (main_arg6 : FVec F S64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S50000x64 .f32) (main_arg1 : IVec S2x800000 32) (main_arg2 : FVec F S128x64 .f32) (main_arg3 : FVec F S64 .f32) (main_arg4 : FVec F S128x64 .f32) (main_arg5 : FVec F S64 .f32) (main_arg6 : FVec F S64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_arg6 main_arg7 main_v13 main_v16
-- ==== Kernel.lean ====
abbrev S50000x64 : Shape := ⟨2, ![50000, 64]⟩
abbrev S2x800000 : Shape := ⟨2, ![2, 800000]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S64x64 : Shape := ⟨2, ![64, 64]⟩
abbrev S64x128 : Shape := ⟨2, ![64, 128]⟩
abbrev S50000x128 : Shape := ⟨2, ![50000, 128]⟩
abbrev S10000x64 : Shape := ⟨2, ![10000, 64]⟩
abbrev S10000x128 : Shape := ⟨2, ![10000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 81
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S64x64, .f32⟩
  | .hbm, ⟨13, _⟩ => ⟨S64x64, .f32⟩
  | .hbm, ⟨14, _⟩ => ⟨S64x128, .f32⟩
  | .hbm, ⟨15, _⟩ => ⟨S50000x128, .f32⟩
  | .hbm, ⟨16, _⟩ => ⟨S50000x64, .f32⟩
  | .hbm, ⟨17, _⟩ => ⟨S50000x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S1, .i32⟩
  | .hbm, ⟨27, _⟩ => ⟨S_, .i32⟩
  | .hbm, ⟨28, _⟩ => ⟨S800000x1, .i32⟩
  | .hbm, ⟨29, _⟩ => ⟨S800000x1, .i1⟩
  | .hbm, ⟨30, _⟩ => ⟨S1x1, .i32⟩
  | .hbm, ⟨31, _⟩ => ⟨S800000x1, .i32⟩
  | .hbm, ⟨32, _⟩ => ⟨S800000x1, .i1⟩
  | .hbm, ⟨33, _⟩ => ⟨S800000x1, .i1⟩
  | .hbm, ⟨34, _⟩ => ⟨S_, .i1⟩
  | .hbm, ⟨35, _⟩ => ⟨S800000, .i1⟩
  | .hbm, ⟨36, _⟩ => ⟨S800000x64, .f32⟩
  | .hbm, ⟨37, _⟩ => ⟨S800000x64, .i1⟩
  | .hbm, ⟨38, _⟩ => ⟨S_, .f32⟩
  | .hbm, ⟨39, _⟩ => ⟨S800000x64, .f32⟩
  | .hbm, ⟨40, _⟩ => ⟨S800000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S1, .i32⟩
  | .hbm, ⟨50, _⟩ => ⟨S_, .i32⟩
  | .hbm, ⟨51, _⟩ => ⟨S800000x1, .i32⟩
  | .hbm, ⟨52, _⟩ => ⟨S800000x1, .i1⟩
  | .hbm, ⟨53, _⟩ => ⟨S1x1, .i32⟩
  | .hbm, ⟨54, _⟩ => ⟨S800000x1, .i32⟩
  | .hbm, ⟨55, _⟩ => ⟨S800000x1, .i1⟩
  | .hbm, ⟨56, _⟩ => ⟨S800000x1, .i1⟩
  | .hbm, ⟨57, _⟩ => ⟨S_, .i1⟩
  | .hbm, ⟨58, _⟩ => ⟨S800000, .i1⟩
  | .hbm, ⟨59, _⟩ => ⟨S800000x64, .f32⟩
  | .hbm, ⟨60, _⟩ => ⟨S800000x64, .i1⟩
  | .hbm, ⟨61, _⟩ => ⟨S_, .f32⟩
  | .hbm, ⟨62, _⟩ => ⟨S800000x64, .f32⟩
  | .hbm, ⟨63, _⟩ => ⟨S800000x64, .f32⟩
  | .hbm, ⟨64, _⟩ => ⟨S800000x64, .f32⟩
  | .hbm, ⟨65, _⟩ => ⟨S1x64, .f32⟩
  | .hbm, ⟨66, _⟩ => ⟨S800000x64, .f32⟩
  | .hbm, ⟨67, _⟩ => ⟨S800000x64, .f32⟩
  | .hbm, ⟨68, _⟩ => ⟨S_, .f32⟩
  | .hbm, ⟨69, _⟩ => ⟨S800000x64, .f32⟩
  | .hbm, ⟨70, _⟩ => ⟨S800000x64, .f32⟩
  | .hbm, ⟨71, _⟩ => ⟨S_, .f32⟩
  | .hbm, ⟨72, _⟩ => ⟨S50000x64, .f32⟩
  | .hbm, ⟨73, _⟩ => ⟨S800000x1, .i32⟩
  | .hbm, ⟨74, _⟩ => ⟨S50000x64, .f32⟩
  | .hbm, ⟨75, _⟩ => ⟨S64x64, .f32⟩
  | .hbm, ⟨76, _⟩ => ⟨S64x64, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S64x64, .f32⟩
  | .local _ .vmem, ⟨10, _⟩ => ⟨S64x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v10 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_call2_cst : Ref sig .tc := ⟨.hbm, 68, rfl⟩
abbrev main_call2_v0 : Ref sig .tc := ⟨.hbm, 69, rfl⟩
abbrev main_v16 : Ref sig .tc := ⟨.hbm, 70, rfl⟩
abbrev main_cst : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S128x64_S64x64_0_0 : S128x64.Slices ![0, 0] S64x64
  slices_S128x64_S64x64_64_0 : S128x64.Slices ![64, 0] S64x64
  concatenates_S64x64_S64x64_S64x128_d1 : Shape.Concatenates [S64x64, S64x64] S64x128 1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S10000x128_S10000x128_0_0 : ∀ a, (![0, 0] : Fin 2 → Nat) a + S10000x128.size a ≤ S10000x128.size a
  h_S10000x128 : 0 < S10000x128.numel
  slices_S50000x128_S50000x64_0_0 : S50000x128.Slices ![0, 0] S50000x64
  slices_S50000x128_S50000x64_0_64 : S50000x128.Slices ![0, 64] S50000x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  dot_S10000x64_S64x128_S10000x128_1_0_0_1_n_n_wf : DotDims.WF S10000x64 S64x128 S10000x128 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S50000x64.size a
  hwx1_7 : ∀ i : grid1.Coords, EltTy.bits .f32 = 32 ∨ (Rect.block (s := S50000x64) S10000x64.size (cc1_transform_7 i) (hinb1_7 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x64 : Shape := ⟨2, ![1, 64]⟩
abbrev S50000x128 : Shape := ⟨2, ![50000, 128]⟩
abbrev S50000 : Shape := ⟨1, ![50000]⟩
abbrev S50000x1 : Shape := ⟨2, ![50000, 1]⟩

abbrev nBuf : Space → Nat
  | .hbm => 94
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x128, .f32⟩
  | .hbm, ⟨31, _⟩ => ⟨S800000x64, .f32⟩
  | .hbm, ⟨32, _⟩ => ⟨S1x64, .f32⟩
  | .hbm, ⟨33, _⟩ => ⟨S800000x64, .f32⟩
  | .hbm, ⟨34, _⟩ => ⟨S800000x64, .f32⟩
  | .hbm, ⟨35, _⟩ => ⟨S_, .f32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S50000x128, .f32⟩
  | .hbm, ⟨43, _⟩ => ⟨S50000x64, .f32⟩
  | .hbm, ⟨44, _⟩ => ⟨S1x64, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S50000x64, .f32⟩
  | .hbm, ⟨49, _⟩ => ⟨S50000x64, .f32⟩
  | .hbm, ⟨50, _⟩ => ⟨S_, .f32⟩
  | .hbm, ⟨51, _⟩ => ⟨S50000, .f32⟩
  | .hbm, ⟨52, _⟩ => ⟨S50000x1, .f32⟩
  | .hbm, ⟨53, _⟩ => ⟨S_, .f32⟩
  | .hbm, ⟨54, _⟩ => ⟨S50000x1, .f32⟩
  | .hbm, ⟨55, _⟩ => ⟨S50000x1, .f32⟩
  | .hbm, ⟨56, _⟩ => ⟨S_, .i32⟩
  | .hbm, ⟨57, _⟩ => ⟨S_, .f32⟩
  | .hbm, ⟨58, _⟩ => ⟨S50000, .f32⟩
  | .hbm, ⟨59, _⟩ => ⟨S50000x1, .f32⟩
  | .hbm, ⟨60, _⟩ => ⟨S_, .f32⟩
  | .hbm, ⟨61, _⟩ => ⟨S50000x1, .f32⟩
  | .hbm, ⟨62, _⟩ => ⟨S50000x1, .f32⟩
  | .hbm, ⟨63, _⟩ => ⟨S50000x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S50000, .f32⟩
  | .hbm, ⟨71, _⟩ => ⟨S50000x1, .f32⟩
  | .hbm, ⟨72, _⟩ => ⟨S50000x1, .f32⟩
  | .hbm, ⟨73, _⟩ => ⟨S50000x1, .f32⟩
  | .hbm, ⟨74, _⟩ => ⟨S_, .f32⟩
  | .hbm, ⟨75, _⟩ => ⟨S_, .i1⟩
  | .hbm, ⟨76, _⟩ => ⟨S_, .f32⟩
  | .hbm, ⟨77, _⟩ => ⟨S_, .f32⟩
  | .hbm, ⟨78, _⟩ => ⟨S50000x1, .f32⟩
  | .hbm, ⟨79, _⟩ => ⟨S50000x1, .f32⟩
  | .hbm, ⟨80, _⟩ => ⟨S50000x64, .f32⟩
  | .hbm, ⟨81, _⟩ => ⟨S50000x64, .f32⟩
  | .hbm, ⟨82, _⟩ => ⟨S_, .f32⟩
  | .hbm, ⟨83, _⟩ => ⟨S50000x1, .f32⟩
  | .hbm, ⟨84, _⟩ => ⟨S50000x1, .f32⟩
  | .hbm, ⟨85, _⟩ => ⟨S50000x1, .f32⟩
  | .hbm, ⟨86, _⟩ => ⟨S50000x64, .f32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .hbm, ⟨91, _⟩ => ⟨S1x64, .f32⟩
  | .hbm, ⟨92, _⟩ => ⟨S50000x64, .f32⟩
  | .hbm, ⟨93, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call1_cst : Ref sig .tc := ⟨.hbm, 47, rfl⟩
abbrev main_call1_v0 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_cst_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_cst_1 : Ref sig .tc := ⟨.hbm, 67, rfl⟩
abbrev main_call2_v8 : Ref sig .tc := ⟨.hbm, 68, rfl⟩
abbrev main_call2_cst_2 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_cst_3 : Ref sig .tc := ⟨.hbm, 74, rfl⟩
abbrev main_call2_v13 : Ref sig .tc := ⟨.hbm, 75, rfl⟩
abbrev main_call2_cst_4 : Ref sig .tc := ⟨.hbm, 76, rfl⟩
abbrev main_call2_call0_v0 : Ref sig .tc := ⟨.hbm, 77, rfl⟩
abbrev main_call2_call0_v1 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_6 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The mathematics of one graph-convolution layer, stated once, index by index, over the extended reals.

  A node has 64 features; an edge e joins a source node and a destination node. The message of an edge is
  relu of an affine image of the 128 numbers "source row, then destination row" through a 128 x 64 weight: the
  sum over the 128 contracted positions splits into the 64 that meet the source row and the 64 that meet the
  destination row, so a program may multiply every node's row by the two halves of the weight first and gather
  the products afterwards. The update of a node is the same affine form on "its own row, then its aggregated
  messages", followed by relu and a layer normalisation of the 64 results (mean and variance as sums divided by
  64, the variance shifted by a small constant under a reciprocal square root), scaled and shifted feature by feature.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Spec

open Idealize.ShloMosaic Idealize.ShloMosaic.ValueIdx

/-- Position k of the first half of a 128-long contraction. -/
abbrev lo (k : Fin 64) : Fin 128 := ⟨k.val, by omega⟩
/-- Position k of the second half of a 128-long contraction. -/
abbrev hi (k : Fin 64) : Fin 128 := ⟨64 + k.val, by omega⟩

/-- The node an edge's start index reads: the index read signed and clamped into the table, as a gather does. -/
def nodeOf (idx : IVec ⟨2, ![800000, 1]⟩ 32) (e : Fin 800000) : Fin 50000 :=
  ⟨min (idx (StableHlo.Predicate.ixP e)).toInt.toNat (50000 - 1), by omega⟩

/-- 64 as the float word both programs carry, read at the ideal instance. -/
abbrev c64 : EReal := Ideal.ofBits .f32 0x42800000#32
/-- The layer normalisation's shift of the variance, as the float word both programs carry. -/
abbrev eps : EReal := Ideal.ofBits .f32 0x3727C5AC#32

/-- The affine form: row r of x through the first 64 rows of W, row r of a through its last 64 rows, plus b. -/
def lin (x a : (⟨2, ![50000, 64]⟩ : Shape).Idx → EReal) (W : (⟨2, ![128, 64]⟩ : Shape).Idx → EReal)
    (b : (⟨1, ![64]⟩ : Shape).Idx → EReal) (r : Fin 50000) (j : Fin 64) : EReal :=
  (∑ k : Fin 64, x (ix2 r k) * W (ix2 (lo k) j)) + (∑ k : Fin 64, a (ix2 r k) * W (ix2 (hi k) j)) + b (ix1 j)

/-- The mean of 64 numbers: their sum divided by 64. -/
def mean (u : Fin 64 → EReal) : EReal := Ideal.div (∑ j : Fin 64, u j) c64

/-- The layer normalisation of 64 numbers, read at position j, scaled by g and shifted by h. -/
def norm (u : Fin 64 → EReal) (g h : EReal) (j : Fin 64) : EReal :=
  (u j - mean u) * Ideal.rsqrt (mean (fun j' => (u j' - mean u) * (u j' - mean u)) + eps) * g + h

/-- The updated node features: relu of the affine form, normalised over the 64 features, scaled and shifted. -/
def out (x a : (⟨2, ![50000, 64]⟩ : Shape).Idx → EReal) (W : (⟨2, ![128, 64]⟩ : Shape).Idx → EReal)
    (b g h : (⟨1, ![64]⟩ : Shape).Idx → EReal) : (⟨2, ![50000, 64]⟩ : Shape).Idx → EReal :=
  fun i => norm (fun j => max (lin x a W b (i 0) j) 0) (g (ix1 (i 1))) (h (ix1 (i 1))) (i 1)

/-- The message of edge e at feature j: relu of the source node's row through the first half of W plus the
    destination node's row through the second half plus b. -/
def msg (x : (⟨2, ![50000, 64]⟩ : Shape).Idx → EReal) (W : (⟨2, ![128, 64]⟩ : Shape).Idx → EReal)
    (b : (⟨1, ![64]⟩ : Shape).Idx → EReal) (src dst : Fin 800000 → Fin 50000) :
    (⟨2, ![800000, 64]⟩ : Shape).Idx → EReal :=
  fun i => max ((∑ k : Fin 64, x (ix2 (src (i 0)) k) * W (ix2 (lo k) (i 1)))
    + (∑ k : Fin 64, x (ix2 (dst (i 0)) k) * W (ix2 (hi k) (i 1))) + b (ix1 (i 1))) 0

/-- The same update with the weight given as its two [64 x 64] halves and the three vectors as one-row matrices:
    the form a program takes that multiplies a node's own row and its aggregated row separately. -/
def outK (x a : (⟨2, ![50000, 64]⟩ : Shape).Idx → EReal) (wn wa : (⟨2, ![64, 64]⟩ : Shape).Idx → EReal)
    (b g h : (⟨2, ![1, 64]⟩ : Shape).Idx → EReal) : (⟨2, ![50000, 64]⟩ : Shape).Idx → EReal :=
  fun i => norm (fun j => max ((∑ k : Fin 64, x (ix2 (i 0) k) * wn (ix2 k j)) + (∑ k : Fin 64, a (ix2 (i 0) k) * wa (ix2 k j))
      + b (ix2 (0 : Fin 1) j)) 0) (g (ix2 (0 : Fin 1) (i 1))) (h (ix2 (0 : Fin 1) (i 1))) (i 1)

/-- Every entry of the edge list is a node number: between 0 and 49999. -/
def InRange (ei : IVec ⟨2, ![2, 800000]⟩ 32) : Prop := ∀ i, 0 ≤ (ei i).toInt ∧ (ei i).toInt < 50000

/-- Every node's row through a [64 x C] weight: the product a program computes before it gathers. -/
def rowsThrough {C : Nat} (x : (⟨2, ![50000, 64]⟩ : Shape).Idx → EReal) (w : (⟨2, ![64, C]⟩ : Shape).Idx → EReal) :
    (⟨2, ![50000, C]⟩ : Shape).Idx → EReal :=
  fun i => ∑ k : Fin 64, x (ix2 (i 0) k) * w (ix2 k (i 1))

end Cert.Spec

end
-- ==== Proof.KTerms.lean ====
/-
  The host operations the kernel's program applies around its two kernel launches, as pure functions of the
  argument arrays: the two rows of the edge list as flat index vectors, an index counted from the end wrapped
  to the front, the test that a wrapped index lies inside the 50000-row table, the guarded row lookup (a row of
  the table where the index is inside, a not-a-number word elsewhere), the edge messages from the looked-up
  projected rows, and the sum of the messages into their destination nodes.
-/
import proofs.«417284_j90692529422948_2_alg».proof.Proof.Gen.KernelIdeal

noncomputable section

namespace Cert.KernelIdeal.Terms

open Idealize.ShloMosaic Cert.KernelIdeal
open Cert.KernelIdeal.Facts₀

variable {F : FTy → Type} [FloatOps F]

/-- The source endpoints: row 0 of the edge list, flat. -/
def srcIdx (ei : IVec S2x800000 32) : IVec S800000 32 :=
  shapeCast S800000 (extractStridedSlice S1x800000 ![0, 0] ei slices_S2x800000_S1x800000_0_0) shapeCasts_S1x800000_S800000
/-- The destination endpoints: row 1 of the edge list, flat. -/
def dstIdx (ei : IVec S2x800000 32) : IVec S800000 32 :=
  shapeCast S800000 (extractStridedSlice S1x800000 ![1, 0] ei slices_S2x800000_S1x800000_1_0) shapeCasts_S1x800000_S800000

/-- A negative index counts from the end of the 50000-row table. -/
def wrapIdx (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- An index vector as the one-column table of start indices a gather or scatter takes. -/
def colOf (v : IVec S800000 32) : IVec S800000x1 32 := broadcastInDim S800000x1 ![0] bcast_S800000_S800000x1_0 v

/-- Per edge: is the start index between 0 and 49999? -/
def inTable (i : IVec S800000x1 32) : IVec S800000 1 :=
  Host.reduce IntOp.andi
    (andi (cmpi .sge i (broadcastInDim S800000x1 ![] bcast_S_S800000x1 (constantI S_ 32 0#32)))
      (cmpi .sle i (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The guarded row lookup: row `v e` (wrapped) of the table where that index is inside it, the
    not-a-number word where it is not. -/
def take (t : FVec F S50000x64 .f32) (v : IVec S800000 32) : FVec F S800000x64 .f32 :=
  select (broadcastInDim S800000x64 ![0] bcast_S800000_S800000x64_0 (inTable (colOf (wrapIdx v))))
    (Host.gather gather_S50000x64_S800000x1_S800000x64_1_0_n_n_0_1_164 t (colOf (wrapIdx v)))
    (broadcastInDim S800000x64 ![] bcast_S_S800000x64 (constant S_ .f32 0x7FC00000#32))

/-- The two halves of the message weight side by side: a [64 x 128] matrix. -/
def wcat (Wm : FVec F S128x64 .f32) : FVec F S64x128 .f32 :=
  concatenate S64x128 1 [⟨S64x64, extractStridedSlice S64x64 ![0, 0] Wm slices_S128x64_S64x64_0_0⟩,
    ⟨S64x64, extractStridedSlice S64x64 ![64, 0] Wm slices_S128x64_S64x64_64_0⟩] concatenates_S64x64_S64x64_S64x128_d1

/-- The edge messages from the projected node rows `pq` (columns 0..63: through the first half of the weight;
    columns 64..127: through the second half): relu of source lookup + destination lookup + bias. -/
def msgK (pq : FVec F S50000x128 .f32) (ei : IVec S2x800000 32) (bm : FVec F S64 .f32) : FVec F S800000x64 .f32 :=
  maximumf
    (addf (addf (take (extractStridedSlice S50000x64 ![0, 0] pq slices_S50000x128_S50000x64_0_0) (srcIdx ei))
        (take (extractStridedSlice S50000x64 ![0, 64] pq slices_S50000x128_S50000x64_0_64) (dstIdx ei)))
      (broadcastInDim S800000x64 ![0, 1] bcast_S1x64_S800000x64_0_1 (broadcastInDim S1x64 ![1] bcast_S64_S1x64_1 bm)))
    (broadcastInDim S800000x64 ![] bcast_S_S800000x64 (constant S_ .f32 0x00000000#32))

/-- The messages summed into their destination nodes, from zero. -/
def aggK (idx : IVec S800000x1 32) (u : FVec F S800000x64 .f32) : FVec F S50000x64 .f32 :=
  Host.scatterAdd scatter_S50000x64_S800000x1_S800000x64_1_0_0_1
    (broadcastInDim S50000x64 ![] bcast_S_S50000x64 (constant S_ .f32 0x00000000#32)) idx u

/-- The first and second halves of the update weight, and a 64-vector as a one-row matrix. -/
def wTop (Wu : FVec F S128x64 .f32) : FVec F S64x64 .f32 := extractStridedSlice S64x64 ![0, 0] Wu slices_S128x64_S64x64_0_0
def wBot (Wu : FVec F S128x64 .f32) : FVec F S64x64 .f32 := extractStridedSlice S64x64 ![64, 0] Wu slices_S128x64_S64x64_64_0
def asRow (v : FVec F S64 .f32) : FVec F S1x64 .f32 := shapeCast S1x64 v shapeCasts_S64_S1x64

end Cert.KernelIdeal.Terms

end
-- ==== Proof.RTerms.lean ====
/-
  The reference program's host operations as pure functions of the argument arrays: the two rows of the edge
  list as flat index vectors, an index counted from the end wrapped to the front, the plain row lookup, the
  edge messages (relu of the 128 looked-up numbers through the message weight plus bias), their sum into the
  destination nodes, and the node update: relu of "own row, then aggregated messages" through the update
  weight plus bias, then mean, variance (a sum of squares over 64 minus zero degrees of freedom, guarded by a
  test that this count is positive) and the normalisation, scaled and shifted.
-/
import proofs.«417284_j90692529422948_2_alg».proof.Proof.Gen.ReferenceIdeal

noncomputable section

namespace Cert.ReferenceIdeal.Terms

open Idealize.ShloMosaic Cert.ReferenceIdeal
open Cert.ReferenceIdeal.Facts₀

variable {F : FTy → Type} [FloatOps F]

/-- The source endpoints: row 0 of the edge list, flat. -/
def srcIdx (ei : IVec S2x800000 32) : IVec S800000 32 :=
  shapeCast S800000 (extractStridedSlice S1x800000 ![0, 0] ei slices_S2x800000_S1x800000_0_0) shapeCasts_S1x800000_S800000
/-- The destination endpoints: row 1 of the edge list, flat. -/
def dstIdx (ei : IVec S2x800000 32) : IVec S800000 32 :=
  shapeCast S800000 (extractStridedSlice S1x800000 ![1, 0] ei slices_S2x800000_S1x800000_1_0) shapeCasts_S1x800000_S800000

/-- A negative index counts from the end of the 50000-row table. -/
def wrapIdx (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- An index vector as the one-column table of start indices a gather or scatter takes. -/
def colOf (v : IVec S800000 32) : IVec S800000x1 32 := broadcastInDim S800000x1 ![0] bcast_S800000_S800000x1_0 v

/-- The plain row lookup: row `v e` (wrapped) of the node features. -/
def rows (nf : FVec F S50000x64 .f32) (v : IVec S800000 32) : FVec F S800000x64 .f32 :=
  Host.gather gather_S50000x64_S800000x1_S800000x64_1_0_n_n_0_1_164 nf (colOf (wrapIdx v))

/-- The edge messages: relu of (source row, destination row) through the message weight, plus bias. -/
def msgR (nf : FVec F S50000x64 .f32) (ei : IVec S2x800000 32) (Wm : FVec F S128x64 .f32) (bm : FVec F S64 .f32) :
    FVec F S800000x64 .f32 :=
  maximumf
    (addf (Host.dotGeneral dot_S800000x128_S128x64_S800000x64_1_0_0_1_n_n none
        (concatenate S800000x128 1 [⟨S800000x64, rows nf (srcIdx ei)⟩, ⟨S800000x64, rows nf (dstIdx ei)⟩]
          concatenates_S800000x64_S800000x64_S800000x128_d1) Wm)
      (broadcastInDim S800000x64 ![0, 1] bcast_S1x64_S800000x64_0_1 (broadcastInDim S1x64 ![1] bcast_S64_S1x64_1 bm)))
    (broadcastInDim S800000x64 ![] bcast_S_S800000x64 (constant S_ .f32 0x00000000#32))

/-- The messages summed into their destination nodes, from zero. -/
def aggR (idx : IVec S800000x1 32) (u : FVec F S800000x64 .f32) : FVec F S50000x64 .f32 :=
  Host.scatterAdd scatter_S50000x64_S800000x1_S800000x64_1_0_0_1
    (broadcastInDim S50000x64 ![] bcast_S_S50000x64 (constant S_ .f32 0x00000000#32)) idx u

/-- The update layer before normalisation: relu of (own row, aggregated row) through the update weight, plus bias. -/
def actR (nf A : FVec F S50000x64 .f32) (Wu : FVec F S128x64 .f32) (bu : FVec F S64 .f32) : FVec F S50000x64 .f32 :=
  maximumf
    (addf (Host.dotGeneral dot_S50000x128_S128x64_S50000x64_1_0_0_1_n_n none
        (concatenate S50000x128 1 [⟨S50000x64, nf⟩, ⟨S50000x64, A⟩] concatenates_S50000x64_S50000x64_S50000x128_d1) Wu)
      (broadcastInDim S50000x64 ![0, 1] bcast_S1x64_S50000x64_0_1 (broadcastInDim S1x64 ![1] bcast_S64_S1x64_1 bu)))
    (broadcastInDim S50000x64 ![] bcast_S_S50000x64 (constant S_ .f32 0x00000000#32))

/-- A row's sum as a one-column matrix. -/
def rowSum (u : FVec F S50000x64 .f32) : FVec F S50000x1 .f32 :=
  broadcastInDim S50000x1 ![0] bcast_S50000_S50000x1_0
    (Host.reduceAdd u (constant S_ .f32 0x00000000#32) reducesTo_S50000x64_S50000_d1 h_S_)

/-- A row's mean: its sum over 64. -/
def meanR (u : FVec F S50000x64 .f32) : FVec F S50000x1 .f32 :=
  Host.divf (rowSum u) (broadcastInDim S50000x1 ![] bcast_S_S50000x1 (constant S_ .f32 0x42800000#32))

/-- A row minus its mean. -/
def centR (u : FVec F S50000x64 .f32) : FVec F S50000x64 .f32 :=
  subf u (broadcastInDim S50000x64 ![0, 1] bcast_S50000x1_S50000x64_0_1 (meanR u))

/-- The divisor of the variance: 64 minus zero degrees of freedom. -/
def cntR : FVec F S_ .f32 := subf (constant S_ .f32 0x42800000#32) (sitofp .f32 (constantI S_ 32 0#32))

/-- A row's variance: the sum of its squared deviations over the divisor where the divisor is positive, the
    not-a-number word otherwise. -/
def varR (u : FVec F S50000x64 .f32) : FVec F S50000x1 .f32 :=
  select (broadcastInDim S50000x1 ![] bcast_S_S50000x1 (cmpf .ogt (cntR (F := F)) (constant S_ .f32 0x00000000#32)))
    (Host.divf (rowSum (mulf (centR u) (centR u))) (broadcastInDim S50000x1 ![] bcast_S_S50000x1 (cntR (F := F))))
    (broadcastInDim S50000x1 ![] bcast_S_S50000x1 (id (constant S_ .f32 0x7FC00000#32)))

/-- The layer normalisation of every row, scaled by ga and shifted by be. -/
def normR (u : FVec F S50000x64 .f32) (ga be : FVec F S64 .f32) : FVec F S50000x64 .f32 :=
  addf
    (mulf
      (mulf (subf u (broadcastInDim S50000x64 ![0, 1] bcast_S50000x1_S50000x64_0_1 (meanR u)))
        (broadcastInDim S50000x64 ![0, 1] bcast_S50000x1_S50000x64_0_1
          (Host.rsqrt (addf (varR u) (broadcastInDim S50000x1 ![] bcast_S_S50000x1 (constant S_ .f32 0x3727C5AC#32))))))
      (broadcastInDim S50000x64 ![0, 1] bcast_S1x64_S50000x64_0_1 (broadcastInDim S1x64 ![1] bcast_S64_S1x64_1 ga)))
    (broadcastInDim S50000x64 ![0, 1] bcast_S1x64_S50000x64_0_1 (broadcastInDim S1x64 ![1] bcast_S64_S1x64_1 be))

/-- The reference's result as one function of its eight arguments. -/
def resOut (nf : FVec F S50000x64 .f32) (ei : IVec S2x800000 32) (Wm : FVec F S128x64 .f32) (bm : FVec F S64 .f32)
    (Wu : FVec F S128x64 .f32) (bu ga be : FVec F S64 .f32) : FVec F S50000x64 .f32 :=
  normR (actR nf (aggR (colOf (dstIdx ei)) (msgR nf ei Wm bm)) Wu bu) ga be

end Cert.ReferenceIdeal.Terms

end
-- ==== Proof.Bridge.lean ====
/-
  The two programs apply the same host operations to the edge list and to the messages: the index tables they
  hand to their lookups and to the sum into destination nodes are the same functions of the edge list, and the
  sum into destination nodes is the same function of its index table and its messages. Each program states these
  over its own copy of the shapes and dimension numbers; the copies are equal term by term.
-/
import proofs.«417284_j90692529422948_2_alg».proof.Proof.KTerms
import proofs.«417284_j90692529422948_2_alg».proof.Proof.RTerms

noncomputable section

namespace Cert.Bridge

open Idealize.ShloMosaic

variable {F : FTy → Type} [FloatOps F]

/-- The destination endpoints as a start-index table: one function of the edge list in both programs. -/
theorem colOf_dst (ei : IVec Cert.KernelIdeal.S2x800000 32) :
    Cert.KernelIdeal.Terms.colOf (Cert.KernelIdeal.Terms.dstIdx ei)
      = Cert.ReferenceIdeal.Terms.colOf (Cert.ReferenceIdeal.Terms.dstIdx ei) := rfl

/-- The wrapped source endpoints as a start-index table: one function of the edge list in both programs. -/
theorem start_src (ei : IVec Cert.KernelIdeal.S2x800000 32) :
    Cert.KernelIdeal.Terms.colOf (Cert.KernelIdeal.Terms.wrapIdx (Cert.KernelIdeal.Terms.srcIdx ei))
      = Cert.ReferenceIdeal.Terms.colOf (Cert.ReferenceIdeal.Terms.wrapIdx (Cert.ReferenceIdeal.Terms.srcIdx ei)) := rfl

/-- The wrapped destination endpoints as a start-index table: one function of the edge list in both programs. -/
theorem start_dst (ei : IVec Cert.KernelIdeal.S2x800000 32) :
    Cert.KernelIdeal.Terms.colOf (Cert.KernelIdeal.Terms.wrapIdx (Cert.KernelIdeal.Terms.dstIdx ei))
      = Cert.ReferenceIdeal.Terms.colOf (Cert.ReferenceIdeal.Terms.wrapIdx (Cert.ReferenceIdeal.Terms.dstIdx ei)) := rfl

/-- The sum of the messages into their destination nodes: one function of the index table and the messages in
    both programs. -/
theorem agg_eq (idx : IVec Cert.KernelIdeal.S800000x1 32) (u : FVec F Cert.KernelIdeal.S800000x64 .f32) :
    Cert.KernelIdeal.Terms.aggK idx u = Cert.ReferenceIdeal.Terms.aggR idx u := rfl

end Cert.Bridge

end
-- ==== Proof.PreDecode.lean ====
/-
  The precondition read back: when the printed predicate answers true on a memory, every entry of the edge list
  held there is a node number between 0 and 49999.
-/
import proofs.«417284_j90692529422948_2_alg».proof.Defs
import proofs.«417284_j90692529422948_2_alg».proof.Proof.Gen.KernelIdeal
import proofs.«417284_j90692529422948_2_alg».proof.Proof.Gen.Pre_finite_inputs
import proofs.«417284_j90692529422948_2_alg».proof.Proof.Spec
import Idealize.ShloMosaic.Lib.ReduceAll
import Idealize.ShloMosaic.Lib.StableHlo.Predicate

noncomputable section

namespace Cert.PreDecode

open Idealize.ShloMosaic Idealize.SL.Sem

/-- The rank-0 shape has a single index. -/
local instance : Subsingleton Cert.Pre_finite_inputs.S_.Idx := ⟨fun a b => funext fun d => d.elim0⟩

/-- The last part of the predicate answering true at its one index says every entry of the edge list lies in
    [0, 50000): its last conjunct is the conjunction, over all entries, of the two signed comparisons against the
    constants 0 and 50000. -/
theorem part2_last [Cert.Pre_finite_inputs.Facts] {F : FTy → Type} [FloatOps F]
    (a1 : IVec Cert.Pre_finite_inputs.S2x800000 32) (v33 : IVec Cert.Pre_finite_inputs.S_ 1)
    (j : Cert.Pre_finite_inputs.S_.Idx)
    (e : Cert.Pre_finite_inputs.fn_part2 (F := F) a1 v33 j = 1#1) (i : Cert.Pre_finite_inputs.S2x800000.Idx) :
    0 ≤ (a1 i).toInt ∧ (a1 i).toInt < 50000 := by
  unfold Cert.Pre_finite_inputs.fn_part2 at e
  dsimp only at e
  have e2 := (IntOp.andi_eq_one.1 e).2
  have e3 := Host.reduce_andi_all _ _ _ _ j e2 i
  obtain ⟨h0, h1⟩ := IntOp.andi_eq_one.1 e3
  have h0' : (0#32 : BitVec 32).toInt ≤ (a1 i).toInt := IntOp.cmpi_sge.1 h0
  have h1' : (a1 i).toInt < (50000#32 : BitVec 32).toInt := IntOp.cmpi_slt.1 h1
  have z0 : (0#32 : BitVec 32).toInt = 0 := by decide
  have z1 : (50000#32 : BitVec 32).toInt = 50000 := by decide
  rw [z0] at h0'
  rw [z1] at h1'
  exact ⟨h0', h1'⟩

/-- The precondition's last conjunct, decoded: the edge list on every device holds node numbers only. -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.InRange (m ((c.tc : Thread Cert.KernelIdeal.nD Cert.KernelIdeal.τ).loc Cert.KernelIdeal.main_arg1)) := by
  intro i
  have e := congrFun (h c) ValueIdx.ix0
  unfold Cert.Pre_finite_inputs.fn Cert.Pre_finite_inputs.fn_part1 at e
  exact part2_last _ _ _ e i

end Cert.PreDecode

end
-- ==== Proof.Reg0.lean ====
/-
  The first kernel launch as one whole-array function: five grid points, point t holding rows 10000 t .. 10000 t + 9999
  of the node features and the whole [64 x 128] weight, each writing its rows of the product. Together the five
  blocks cover the result, which is every node's row through the weight.
-/
import proofs.«417284_j90692529422948_2_alg».proof.Proof.Gen.KernelIdeal.Frame
import proofs.«417284_j90692529422948_2_alg».proof.Proof.Spec
import Idealize.ShloMosaic.Lib.Pipeline.Value
import Idealize.ShloMosaic.Lib.ValueIdx
import Idealize.ShloMosaic.PureOps.Ideal.Laws

noncomputable section

namespace Cert.KernelIdeal.Reg0

open Idealize.ShloMosaic Idealize.ShloMosaic.TcCoe Idealize.SL.Sem
open Idealize.ShloMosaic.ValueIdx
open Cert.KernelIdeal Cert.KernelIdeal.Gen

/-! ## The block product at an index -/

/-- The zero offsets of a whole-buffer access, however they are spelt. -/
theorem hz : (![0, 0] : Fin 2 → Nat) = fun _ => 0 := funext fun a => by fin_cases a <;> rfl

/-- The dimension numbers of the block product: rows by the contracted 64, the contracted 64 by columns. -/
abbrev projDot := dot_S10000x64_S64x128_S10000x128_1_0_0_1_n_n

/-- The left operand is read at the output's row … -/
theorem lhs_0 (j : S10000x128.Idx) (k : projDot.contr.Idx) : (projDot.lhsIdx j k 0 : ℕ) = j 0 := by
  simp [DotDims.lhsIdx, projDot, dot_S10000x64_S64x128_S10000x128_1_0_0_1_n_n]; rfl
/-- … and at the contracted position; -/
theorem lhs_1 (j : S10000x128.Idx) (k : projDot.contr.Idx) : (projDot.lhsIdx j k 1 : ℕ) = k ⟨0, by decide⟩ := by
  simp [DotDims.lhsIdx, projDot, dot_S10000x64_S64x128_S10000x128_1_0_0_1_n_n]; rfl
/-- the right operand at the contracted position … -/
theorem rhs_0 (j : S10000x128.Idx) (k : projDot.contr.Idx) : (projDot.rhsIdx j k 0 : ℕ) = k ⟨0, by decide⟩ := by
  simp [DotDims.rhsIdx, projDot, dot_S10000x64_S64x128_S10000x128_1_0_0_1_n_n]; rfl
/-- … and at the output's column. -/
theorem rhs_1 (j : S10000x128.Idx) (k : projDot.contr.Idx) : (projDot.rhsIdx j k 1 : ℕ) = j 1 := by
  simp [DotDims.rhsIdx, projDot, dot_S10000x64_S64x128_S10000x128_1_0_0_1_n_n]; rfl

/-- What one grid point computes from its two blocks, at row p and column q: the sum over the 64 contracted positions
    of the products of the row's entries with the column's. Narrowing a float's format is the identity on the extended
    reals, the cast to the same shape is the identity, and the accumulator is the zero block. -/
theorem pay_apply (x0 : Vec Ideal S10000x64 .f32) (x1 : Vec Ideal S64x128 .f32) (p : Fin 10000) (q : Fin 128) :
    k0_pay1 (F := Ideal) x0 x1 (ix2 p q) = ∑ k : Fin 64, x0 (ix2 p k) * x1 (ix2 k q) := by
  unfold k0_pay1
  rw [shapeCast_self]
  refine (Ideal.matmul_constant_zero_apply projDot none _ _ (ix2 p q)).trans ?_
  rw [← Equiv.sum_comp (contrEquiv1 projDot 64 rfl rfl).symm]
  refine Finset.sum_congr rfl fun k _ => ?_
  have c := contrEquiv1_symm_val projDot 64 rfl rfl k
  have l : projDot.lhsIdx (ix2 p q) ((contrEquiv1 projDot 64 rfl rfl).symm k) = ix2 p k := by
    funext a; apply Fin.ext
    match a with
    | ⟨0, _⟩ => exact lhs_0 _ _
    | ⟨1, _⟩ => exact (lhs_1 _ _).trans c
  have r : projDot.rhsIdx (ix2 p q) ((contrEquiv1 projDot 64 rfl rfl).symm k) = ix2 k q := by
    funext a; apply Fin.ext
    match a with
    | ⟨0, _⟩ => exact (rhs_0 _ _).trans c
    | ⟨1, _⟩ => exact rhs_1 _ _
  show x0 (projDot.lhsIdx (ix2 p q) ((contrEquiv1 projDot 64 rfl rfl).symm k)) * x1 (projDot.rhsIdx (ix2 p q) ((contrEquiv1 projDot 64 rfl rfl).symm k)) = _
  rw [l, r]

/-- A block product whose left block's row p is row `i 0` of x and whose right block's column q is column `i 1` of w
    is, at (p, q), that row of x through w at that column. -/
theorem block_rows (x0 : Vec Ideal S10000x64 .f32) (x1 : Vec Ideal S64x128 .f32)
    (x : S50000x64.Idx → EReal) (w : S64x128.Idx → EReal) (i : S50000x128.Idx) (p : Fin 10000) (q : Fin 128)
    (h0 : ∀ k : Fin 64, x0 (ix2 p k) = x (ix2 (i 0) k)) (h1 : ∀ k : Fin 64, x1 (ix2 k q) = w (ix2 k (i 1))) :
    k0_pay1 (F := Ideal) x0 x1 (ix2 p q) = Cert.Spec.rowsThrough x w i := by
  rw [pay_apply]
  exact Finset.sum_congr rfl fun k _ => by rw [h0 k, h1 k]

/-! ## The index maps, decided over the five points -/

/-- At point t the node features' block and the result's block are block t along the rows, block 0 along the
    columns; the weight's block is always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## What a point writes back -/

/-- Point t writes back block t of the whole-array product: its rows are rows 10000 t .. of the node features,
    its weight block is the whole weight. -/
theorem flushed_eq (V : (c : Dev nD) → (b : Ref sig .tc) → Buf (Elt Ideal) ((c : Thread nD τ).loc b)) (c : Dev nD)
    (t : Fin cfg0.N) :
    (dat0 (F := Ideal) V c).flushed 2 t = ((cfg0.win 2).blk t).view.read (Elt Ideal)
      (Cert.Spec.rowsThrough (V c main_arg0 : S50000x64.Idx → EReal) (V c main_v6 : S64x128.Idx → EReal)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x128) hz]
  obtain ⟨e0, e1, e2, e3, e4, e5⟩ := idx_facts t
  funext j
  show k0_pay1 (F := Ideal) (iblk0 V c 0 t) (iblk0 V c 1 t) j
    = Cert.Spec.rowsThrough (V c main_arg0 : S50000x64.Idx → EReal) (V c main_v6 : S64x128.Idx → EReal) (((cfg0.win 2).blk t).view.emb j)
  have hj : (j : S10000x128.Idx) = ix2 (j 0) (j 1) := eq_ix2 j
  refine (congrArg (k0_pay1 (F := Ideal) (iblk0 V c 0 t) (iblk0 V c 1 t)) hj).trans ?_
  refine block_rows (iblk0 V c 0 t) (iblk0 V c 1 t) (V c main_arg0) (V c main_v6) (((cfg0.win 2).blk t).view.emb j) (j 0) (j 1)
    (fun k => ?_) (fun k => ?_)
  · show V c main_arg0 (((cfg0.win 0).blk t).view.emb (ix2 (j 0) k)) = V c main_arg0 (ix2 ((((cfg0.win 2).blk t).view.emb j) 0) k)
    refine congrArg (V c main_arg0) ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  · show V c main_v6 (((cfg0.win 1).blk t).view.emb (ix2 k (j 1))) = V c main_v6 (ix2 k ((((cfg0.win 2).blk t).view.emb j) 1))
    refine congrArg (V c main_v6) ?_
    funext a; apply Fin.ext
    match a with
    | ⟨0, _⟩ => show win0_1.index t (0 : Fin 2) * 64 + 1 * k.val = k.val; omega
    | ⟨1, _⟩ => show win0_1.index t (1 : Fin 2) * 128 + 1 * (j 1).val = win0_2.index t (1 : Fin 2) * 128 + 1 * (j 1).val; omega

/-! ## The five blocks cover the result -/

/-- An index of the result is in point t's block iff each coordinate is in the block's range on its axis. -/
theorem mem_blk (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v7).slice (win0_2.rect t)).set ↔ _
  rw [View.set_slice_whole, Rect.mem_set_unit]
  exact Iff.rfl

/-- Row r of the result lies in the block of point r / 10000, which is written back. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-! ## The array after the launch -/

/-- After the launch, its result array is the node features' rows through the weight, whatever the buffers held
    when the launch was entered (`V`). -/
theorem final (V : (c : Dev nD) → (b : Ref sig .tc) → Buf (Elt Ideal) ((c : Thread nD τ).loc b)) (c : Dev nD) :
    ((dat0 (F := Ideal) V c).arrAt 2 cfg0.N : S50000x128.Idx → EReal)
      = Cert.Spec.rowsThrough (V c main_arg0 : S50000x64.Idx → EReal) (V c main_v6 : S64x128.Idx → EReal) :=
  (dat0 (F := Ideal) V c).arrAt_eq_of_cover 2
    (Cert.Spec.rowsThrough (V c main_arg0 : S50000x64.Idx → EReal) (V c main_v6 : S64x128.Idx → EReal))
    (fun t _ => flushed_eq V c t) cover

end Cert.KernelIdeal.Reg0

end
-- ==== Proof.Reg1.lean ====
/-
  The second kernel launch as one whole-array function: five grid points, point t holding rows 10000 t .. 10000 t + 9999
  of the node features and of the aggregated messages, the two half weights and the three one-row vectors whole,
  each writing its rows of the normalised update. A row of the result depends on the same row of the two inputs only,
  so the five blocks are restrictions of one function of the whole arrays.
-/
import proofs.«417284_j90692529422948_2_alg».proof.Proof.Gen.KernelIdeal.Frame
import proofs.«417284_j90692529422948_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg1

open Idealize.ShloMosaic Idealize.ShloMosaic.TcCoe Idealize.SL.Sem
open Idealize.ShloMosaic.ValueIdx
open Cert.KernelIdeal Cert.KernelIdeal.Gen

/-! ## Layout operations of the body read at an index -/

section Layout
variable {α : Type}

/-- A vector of length a viewed as a column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast along the rows to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The reciprocal square root of a vector, read at an index. -/
theorem rsqrt_apply {s : Shape} {φ : FTy} (a : FVec Ideal s φ) (i : s.Idx) : rsqrt a i = Ideal.rsqrt (a i) := rfl

/-- A scalar constant of the body is the word's value. -/
theorem scalar_ofBits (φ : FTy) (b : BitVec φ.bits) : Scalar.ofBits (F := Ideal) φ b = Ideal.ofBits φ b := rfl

/-! ## The sum over the 64 features of a row -/

/-- The lane sum of a [10000, 64] block at row p is the sum of the row's 64 entries. -/
theorem rowSum_apply (v : FVec Ideal S10000x64 .f32) (hφ : FKind.Formats .f32)
    (hacc : (0x00000000#32 : BitVec 32) = 0x00000000#32) (p : Fin 10000) :
    multiReduction (F := Ideal) .add ([(1 : Fin 2)] : List (Fin 2)) S10000 v 0x00000000#32 reduces_S10000x64_S10000 hφ hacc (ix1 p)
      = ∑ k : Fin 64, v (ix2 p k) := by
  refine (Ideal.multiReduction_add_single v 0x00000000#32 reduces_S10000x64_S10000 hφ hacc (ix1 p)).trans ?_
  refine Finset.sum_congr rfl fun k _ => congrArg v ?_
  funext a
  match a with
  | ⟨0, _⟩ => rfl
  | ⟨1, _⟩ => rfl

/-! ## The product of a row block with a [64, 64] weight -/

theorem lhs_0 (j : S10000x64.Idx) (k : dot_S10000x64_S64x64_S10000x64_1_0_0_1_n_n.contr.Idx) :
    (dot_S10000x64_S64x64_S10000x64_1_0_0_1_n_n.lhsIdx j k 0 : ℕ) = j 0 := by
  simp [DotDims.lhsIdx, dot_S10000x64_S64x64_S10000x64_1_0_0_1_n_n]; rfl
theorem lhs_1 (j : S10000x64.Idx) (k : dot_S10000x64_S64x64_S10000x64_1_0_0_1_n_n.contr.Idx) :
    (dot_S10000x64_S64x64_S10000x64_1_0_0_1_n_n.lhsIdx j k 1 : ℕ) = k ⟨0, by decide⟩ := by
  simp [DotDims.lhsIdx, dot_S10000x64_S64x64_S10000x64_1_0_0_1_n_n]; rfl
theorem rhs_0 (j : S10000x64.Idx) (k : dot_S10000x64_S64x64_S10000x64_1_0_0_1_n_n.contr.Idx) :
    (dot_S10000x64_S64x64_S10000x64_1_0_0_1_n_n.rhsIdx j k 0 : ℕ) = k ⟨0, by decide⟩ := by
  simp [DotDims.rhsIdx, dot_S10000x64_S64x64_S10000x64_1_0_0_1_n_n]; rfl
theorem rhs_1 (j : S10000x64.Idx) (k : dot_S10000x64_S64x64_S10000x64_1_0_0_1_n_n.contr.Idx) :
    (dot_S10000x64_S64x64_S10000x64_1_0_0_1_n_n.rhsIdx j k 1 : ℕ) = j 1 := by
  simp [DotDims.rhsIdx, dot_S10000x64_S64x64_S10000x64_1_0_0_1_n_n]; rfl

/-- The matrix product into a zero accumulator at (p, j): row p of the left operand against column j of the right. -/
theorem mm_apply {φ₁ φ₂ : FTy} (a : FVec Ideal S10000x64 φ₁) (b : FVec Ideal S64x64 φ₂) (p : Fin 10000) (j : Fin 64) :
    matmul dot_S10000x64_S64x64_S10000x64_1_0_0_1_n_n none a b (constant S10000x64 .f32 0x00000000#32) (ix2 p j)
      = ∑ k : Fin 64, a (ix2 p k) * b (ix2 k j) := by
  refine (Ideal.matmul_constant_zero_apply dot_S10000x64_S64x64_S10000x64_1_0_0_1_n_n none a b (ix2 p j)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  refine congrArg₂ (· * ·) (congrArg a (Shape.idx_ext₂ ?_ ?_)) (congrArg b (Shape.idx_ext₂ ?_ ?_))
  · exact lhs_0 _ _
  · exact (lhs_1 _ _).trans hk
  · exact (rhs_0 _ _).trans hk
  · exact rhs_1 _ _

/-! ## The body's arithmetic at an index -/

/-- What the body stores at row p, feature q of its block, from the blocks it loads: the affine form of row p of the
    two row blocks through the two weights plus the bias row, cut below at zero, normalised over the 64 features,
    scaled and shifted by the entries q of the last two rows. -/
theorem pay_apply (x0 x1 : Vec Ideal S10000x64 .f32) (x2 x3 : Vec Ideal S64x64 .f32) (x4 x5 x6 : Vec Ideal S1x64 .f32)
    (p : Fin 10000) (q : Fin 64) :
    k1_pay1 (F := Ideal) (k1_pay2 x0 x1 x2 x3 x4) x5 x6 (ix2 p q)
      = Cert.Spec.norm (fun j => max ((∑ k : Fin 64, x0 (ix2 p k) * x2 (ix2 k j)) + (∑ k : Fin 64, x1 (ix2 p k) * x3 (ix2 k j))
            + x4 (ix2 (0 : Fin 1) j)) 0)
          (x5 (ix2 (0 : Fin 1) q)) (x6 (ix2 (0 : Fin 1) q)) q := by
  unfold k1_pay1 k1_pay2
  simp only [shapeCast_self, mulf_apply, addf_apply, subf_apply, divf_apply, maximumf_apply, broadcast_apply, truncf_apply,
    rsqrt_apply, scalar_ofBits, Ideal.ofBits_zero_f32, broadcastTo_1b_ab_apply, broadcastTo_a1_ab_apply, shapeCast_a_a1_apply,
    rowSum_apply, mm_apply]
  rfl

/-- The same with the rows named by their place in the whole arrays: when the two row blocks are rows 10000 T .. of two
    whole arrays and the other five blocks are whole arrays, what the body stores at an index of its block is the
    update, kernel form, of the whole arrays at the index 10000 T rows further down. -/
theorem block_fun (a0 a1 : S50000x64.Idx → EReal) (w2 w3 : S64x64.Idx → EReal) (b4 b5 b6 : S1x64.Idx → EReal)
    (x0 x1 : Vec Ideal S10000x64 .f32) (x2 x3 : Vec Ideal S64x64 .f32) (x4 x5 x6 : Vec Ideal S1x64 .f32) (T : ℕ)
    (h0 : ∀ (y : S10000x64.Idx) (k : S50000x64.Idx), (k 0).val = 10000 * T + (y 0).val → (k 1).val = (y 1).val → x0 y = a0 k)
    (h1 : ∀ (y : S10000x64.Idx) (k : S50000x64.Idx), (k 0).val = 10000 * T + (y 0).val → (k 1).val = (y 1).val → x1 y = a1 k)
    (h2 : ∀ y, x2 y = w2 y) (h3 : ∀ y, x3 y = w3 y) (h4 : ∀ y, x4 y = b4 y) (h5 : ∀ y, x5 y = b5 y) (h6 : ∀ y, x6 y = b6 y)
    (y : S10000x64.Idx) (i : S50000x64.Idx) (hi0 : (i 0).val = 10000 * T + (y 0).val) (hi1 : (i 1).val = (y 1).val) :
    k1_pay1 (F := Ideal) (k1_pay2 x0 x1 x2 x3 x4) x5 x6 y = Cert.Spec.outK a0 a1 w2 w3 b4 b5 b6 i := by
  obtain rfl : x2 = w2 := funext h2
  obtain rfl : x3 = w3 := funext h3
  obtain rfl : x4 = b4 := funext h4
  obtain rfl : x5 = b5 := funext h5
  obtain rfl : x6 = b6 := funext h6
  obtain ⟨p, q, rfl⟩ : ∃ (p : Fin 10000) (q : Fin 64), y = ix2 p q := ⟨y 0, y 1, eq_ix2 y⟩
  obtain ⟨r, q', rfl⟩ : ∃ (r : Fin 50000) (q' : Fin 64), i = ix2 r q' := ⟨i 0, i 1, eq_ix2 i⟩
  obtain rfl : q' = q := Fin.ext hi1
  have e0 : ∀ k : Fin 64, x0 (ix2 p k) = a0 (ix2 r k) := fun k => h0 (ix2 p k) (ix2 r k) hi0 rfl
  have e1 : ∀ k : Fin 64, x1 (ix2 p k) = a1 (ix2 r k) := fun k => h1 (ix2 p k) (ix2 r k) hi0 rfl
  rw [pay_apply]
  simp only [e0, e1]
  rfl

/-! ## The blocks of the launch -/

theorem hz : (![0, 0] : Fin 2 → Nat) = fun _ => 0 := funext fun a => by fin_cases a <;> rfl

/-- The launch's index maps over its five points: the two row-block inputs and the result are at block row t,
    the five whole-array inputs at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

section Blocks
variable (V : (c : Dev nD) → (b : Ref sig .tc) → Buf (Elt Ideal) ((c : Thread nD τ).loc b)) (c : Dev nD)

/-- The node features' block at point t is rows 10000 t .. of the array. -/
theorem iblk_0_apply (t : Fin cfg1.N) (x : S10000x64.Idx) (k : S50000x64.Idx)
    (hk0 : (k 0).val = 10000 * t.val + (x 0).val) (hk1 : (k 1).val = (x 1).val) :
    (iblk1 V c 0 t : Vec Ideal S10000x64 .f32) x = (V c main_arg0 : S50000x64.Idx → EReal) k := by
  obtain ⟨e0, e1, -⟩ := idx_facts t
  unfold iblk1
  rw [View.read_apply]
  show V c main_arg0 _ = V c main_arg0 k
  refine congrArg _ ?_
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 64 + 1 * (x 1).val = (k 1).val; rw [e1, hk1]; omega

/-- The aggregated messages' block at point t is rows 10000 t .. of the array. -/
theorem iblk_1_apply (t : Fin cfg1.N) (x : S10000x64.Idx) (k : S50000x64.Idx)
    (hk0 : (k 0).val = 10000 * t.val + (x 0).val) (hk1 : (k 1).val = (x 1).val) :
    (iblk1 V c 1 t : Vec Ideal S10000x64 .f32) x = (V c main_v19 : S50000x64.Idx → EReal) k := by
  obtain ⟨-, -, e0, e1, -⟩ := idx_facts t
  unfold iblk1
  rw [View.read_apply]
  show V c main_v19 _ = V c main_v19 k
  refine congrArg _ ?_
  funext a
  apply Fin.ext
  match a with
  | ⟨0, _⟩ => show win1_1.index t (0 : Fin 2) * 10000 + 1 * (x 0).val = (k 0).val; rw [e0, hk0]; omega
  | ⟨1, _⟩ => show win1_1.index t (1 : Fin 2) * 64 + 1 * (x 1).val = (k 1).val; rw [e1, hk1]; omega

/-- The first half weight's block at every point is the whole array. -/
theorem iblk_2_apply (t : Fin cfg1.N) (x : S64x64.Idx) :
    (iblk1 V c 2 t : Vec Ideal S64x64 .f32) x = (V c main_v20 : S64x64.Idx → EReal) x := by
  obtain ⟨-, -, -, -, e0, e1, -⟩ := idx_facts t
  unfold iblk1
  rw [View.read_apply]
  show V c main_v20 _ = V c main_v20 x
  refine congrArg _ ?_
  funext a
  apply Fin.ext
  match a with
  | ⟨0, _⟩ => show win1_2.index t (0 : Fin 2) * 64 + 1 * (x 0).val = (x 0).val; rw [e0]; omega
  | ⟨1, _⟩ => show win1_2.index t (1 : Fin 2) * 64 + 1 * (x 1).val = (x 1).val; rw [e1]; omega

/-- The second half weight's block at every point is the whole array. -/
theorem iblk_3_apply (t : Fin cfg1.N) (x : S64x64.Idx) :
    (iblk1 V c 3 t : Vec Ideal S64x64 .f32) x = (V c main_v21 : S64x64.Idx → EReal) x := by
  obtain ⟨-, -, -, -, -, -, e0, e1, -⟩ := idx_facts t
  unfold iblk1
  rw [View.read_apply]
  show V c main_v21 _ = V c main_v21 x
  refine congrArg _ ?_
  funext a
  apply Fin.ext
  match a with
  | ⟨0, _⟩ => show win1_3.index t (0 : Fin 2) * 64 + 1 * (x 0).val = (x 0).val; rw [e0]; omega
  | ⟨1, _⟩ => show win1_3.index t (1 : Fin 2) * 64 + 1 * (x 1).val = (x 1).val; rw [e1]; omega

/-- The bias row's block at every point is the whole array. -/
theorem iblk_4_apply (t : Fin cfg1.N) (x : S1x64.Idx) :
    (iblk1 V c 4 t : Vec Ideal S1x64 .f32) x = (V c main_v22 : S1x64.Idx → EReal) x := by
  obtain ⟨-, -, -, -, -, -, -, -, e0, e1, -⟩ := idx_facts t
  unfold iblk1
  rw [View.read_apply]
  show V c main_v22 _ = V c main_v22 x
  refine congrArg _ ?_
  funext a
  apply Fin.ext
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-- The scale row's block at every point is the whole array. -/
theorem iblk_5_apply (t : Fin cfg1.N) (x : S1x64.Idx) :
    (iblk1 V c 5 t : Vec Ideal S1x64 .f32) x = (V c main_v23 : S1x64.Idx → EReal) x := by
  obtain ⟨-, -, -, -, -, -, -, -, -, -, e0, e1, -⟩ := idx_facts t
  unfold iblk1
  rw [View.read_apply]
  show V c main_v23 _ = V c main_v23 x
  refine congrArg _ ?_
  funext a
  apply Fin.ext
  match a with
  | ⟨0, _⟩ => show win1_5.index t (0 : Fin 2) * 1 + 1 * (x 0).val = (x 0).val; rw [e0]; omega
  | ⟨1, _⟩ => show win1_5.index t (1 : Fin 2) * 64 + 1 * (x 1).val = (x 1).val; rw [e1]; omega

/-- The shift row's block at every point is the whole array. -/
theorem iblk_6_apply (t : Fin cfg1.N) (x : S1x64.Idx) :
    (iblk1 V c 6 t : Vec Ideal S1x64 .f32) x = (V c main_v24 : S1x64.Idx → EReal) x := by
  obtain ⟨-, -, -, -, -, -, -, -, -, -, -, -, e0, e1, -⟩ := idx_facts t
  unfold iblk1
  rw [View.read_apply]
  show V c main_v24 _ = V c main_v24 x
  refine congrArg _ ?_
  funext a
  apply Fin.ext
  match a with
  | ⟨0, _⟩ => show win1_6.index t (0 : Fin 2) * 1 + 1 * (x 0).val = (x 0).val; rw [e0]; omega
  | ⟨1, _⟩ => show win1_6.index t (1 : Fin 2) * 64 + 1 * (x 1).val = (x 1).val; rw [e1]; omega

end Blocks

section Array
variable (V : (c : Dev nD) → (b : Ref sig .tc) → Buf (Elt Ideal) ((c : Thread nD τ).loc b)) (c : Dev nD)

/-- What point t writes back is block t of the update (kernel form) of the arrays the launch was entered with. -/
theorem flushed_eq (t : Fin cfg1.N) :
    (dat1 (F := Ideal) V c).flushed 7 t = ((cfg1.win 7).blk t).view.read (Elt Ideal)
      (Cert.Spec.outK (V c main_arg0 : S50000x64.Idx → EReal) (V c main_v19 : S50000x64.Idx → EReal)
        (V c main_v20 : S64x64.Idx → EReal) (V c main_v21 : S64x64.Idx → EReal)
        (V c main_v22 : S1x64.Idx → EReal) (V c main_v23 : S1x64.Idx → EReal) (V c main_v24 : S1x64.Idx → EReal)) := by
  show (cfg1.win 7).cut (grid1.coords t) ((dat1 V c).after 7 t) = _
  rw [after1_7]
  unfold out1_7
  rw [View.canon_unit_zero hz]
  simp only [View.ld_unit_zero (S := S10000x64) hz, View.ld_unit_zero (S := S64x64) hz, View.ld_unit_zero (S := S1x64) hz]
  obtain ⟨-, -, -, -, -, -, -, -, -, -, -, -, -, -, e0, e1⟩ := idx_facts t
  funext j
  exact block_fun (V c main_arg0 : S50000x64.Idx → EReal) (V c main_v19 : S50000x64.Idx → EReal)
    (V c main_v20 : S64x64.Idx → EReal) (V c main_v21 : S64x64.Idx → EReal)
    (V c main_v22 : S1x64.Idx → EReal) (V c main_v23 : S1x64.Idx → EReal) (V c main_v24 : S1x64.Idx → EReal)
    (iblk1 V c 0 t) (iblk1 V c 1 t) (iblk1 V c 2 t) (iblk1 V c 3 t) (iblk1 V c 4 t) (iblk1 V c 5 t) (iblk1 V c 6 t) t.val
    (iblk_0_apply V c t) (iblk_1_apply V c t) (iblk_2_apply V c t) (iblk_3_apply V c t) (iblk_4_apply V c t)
    (iblk_5_apply V c t) (iblk_6_apply V c t) j (((cfg1.win 7).blk t).view.emb j)
    (by show win1_7.index t (0 : Fin 2) * 10000 + 1 * (j 0).val = 10000 * t.val + (j 0).val; rw [e0]; omega)
    (by show win1_7.index t (1 : Fin 2) * 64 + 1 * (j 1).val = (j 1).val; rw [e1]; omega)

/-- An index of the result array is in point t's block iff each coordinate is in the block's range on its axis. -/
theorem mem_blk (t : Fin cfg1.N) (i : S50000x64.Idx) :
    i ∈ ((cfg1.win 7).blk t).view.set ↔ ∀ a : Fin 2, win1_7.index t a * S10000x64.size a ≤ (i a).val
      ∧ (i a).val < win1_7.index t a * S10000x64.size a + S10000x64.size a := by
  show i ∈ ((View.whole main_v25).slice (win1_7.rect t)).set ↔ _
  rw [View.set_slice_whole, Rect.mem_set_unit]
  exact Iff.rfl

/-- Row r of the result is written back by point r / 10000. -/
theorem cover (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : grid1.N = 5 := N_1
  have ht : (i 0).val / 10000 < cfg1.N := by show (i 0).val / 10000 < grid1.N; rw [hN]; omega
  obtain ⟨-, -, -, -, -, -, -, -, -, -, -, -, -, -, e0, e1⟩ := idx_facts ⟨(i 0).val / 10000, ht⟩
  refine ⟨⟨(i 0).val / 10000, ht⟩, flush1_7 _, ?_⟩
  rw [mem_blk]
  intro a
  match a with
  | ⟨0, _⟩ =>
    show win1_7.index ⟨(i 0).val / 10000, ht⟩ (0 : Fin 2) * 10000 ≤ (i 0).val
      ∧ (i 0).val < win1_7.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win1_7.index ⟨(i 0).val / 10000, ht⟩ (1 : Fin 2) * 64 ≤ (i 1).val
      ∧ (i 1).val < win1_7.index ⟨(i 0).val / 10000, ht⟩ (1 : Fin 2) * 64 + 64
    rw [e1]
    omega

end Array

/-- After the launch, its result array is the update (kernel form) of the arrays the launch was entered with (`V`). -/
theorem final (V : (c : Dev nD) → (b : Ref sig .tc) → Buf (Elt Ideal) ((c : Thread nD τ).loc b)) (c : Dev nD) :
    ((dat1 (F := Ideal) V c).arrAt 7 cfg1.N : S50000x64.Idx → EReal)
      = Cert.Spec.outK (V c main_arg0 : S50000x64.Idx → EReal) (V c main_v19 : S50000x64.Idx → EReal)
          (V c main_v20 : S64x64.Idx → EReal) (V c main_v21 : S64x64.Idx → EReal)
          (V c main_v22 : S1x64.Idx → EReal) (V c main_v23 : S1x64.Idx → EReal) (V c main_v24 : S1x64.Idx → EReal) := by
  exact (dat1 (F := Ideal) V c).arrAt_eq_of_cover 7 _ (fun t _ => flushed_eq V c t) (cover)

end Cert.KernelIdeal.Reg1

end
-- ==== Proof.KHost.lean ====
/-
  What the kernel program's host operations leave in the buffers its two launches read: the first launch finds the
  node features as launched and the two halves of the message weight side by side; the second finds the node
  features as launched, the messages (from the first launch's result) summed into their destination nodes, the two
  halves of the update weight and the three vectors as one-row matrices.
-/
import proofs.«417284_j90692529422948_2_alg».proof.Proof.Gen.KernelIdeal.Frame
import proofs.«417284_j90692529422948_2_alg».proof.Proof.KTerms
import Idealize.ShloMosaic.Lib.StableHlo.Run

noncomputable section

namespace Cert.KernelIdeal.KHost

open Idealize.ShloMosaic Idealize.ShloMosaic.TcCoe Idealize.SL.Sem Idealize.ShloMosaic.StableHlo
open Cert.KernelIdeal Cert.KernelIdeal.Gen Cert.KernelIdeal.Terms

variable {F : FTy → Type} [FloatOps F]

/-- A value carried to a buffer's own contents type and back is the value. -/
theorem ofBuf_toBuf {T : BufTy} (x : TRef sig T) (v : T.Contents (Elt F)) : x.ofBuf (x.toBuf v) = v := by
  obtain ⟨r, h, h1, h2⟩ := x
  subst h
  rfl

/-! ## What each stretch of host operations writes -/

/-- The buffers the operations before the first launch write. -/
abbrev w0 : List (Ref sig .tc) := [main_v0, main_v1, main_v2, main_v3, main_v4, main_v5, main_v6]
theorem w0_sub : (hostOps0 : List (HloOp τ sig (Elt F))).Forall fun op => op.writes ⊆ (w0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers the two column slices of the first launch's result write. -/
abbrev w1 : List (Ref sig .tc) := [main_v8, main_v9]
theorem w1_sub : (hostOps1 : List (HloOp τ sig (Elt F))).Forall fun op => op.writes ⊆ (w1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers the source-side row lookup writes. -/
abbrev w11 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v10]
theorem w11_sub : (hostOps1_1 : List (HloOp τ sig (Elt F))).Forall fun op => op.writes ⊆ (w11.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers the destination-side row lookup writes. -/
abbrev w12 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v11]
theorem w12_sub : (hostOps1_2 : List (HloOp τ sig (Elt F))).Forall fun op => op.writes ⊆ (w12.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers the sum of the two lookups and the bias writes. -/
abbrev w13 : List (Ref sig .tc) := [main_v12, main_v13, main_v14, main_v15]
theorem w13_sub : (hostOps1_3 : List (HloOp τ sig (Elt F))).Forall fun op => op.writes ⊆ (w13.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers the relu writes. -/
abbrev w14 : List (Ref sig .tc) := [main_call2_cst, main_call2_v0, main_v16]
theorem w14_sub : (hostOps1_4 : List (HloOp τ sig (Elt F))).Forall fun op => op.writes ⊆ (w14.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers the operations just before the second launch write. -/
abbrev w15 : List (Ref sig .tc) := [main_cst, main_v17, main_v18, main_v19, main_v20, main_v21, main_v22, main_v23, main_v24]
theorem w15_sub : (hostOps1_5 : List (HloOp τ sig (Elt F))).Forall fun op => op.writes ⊆ (w15.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-! ## Each stretch over any contents `V` of the buffers: what it leaves alone, and what it computes -/

section Stretches

variable (V : Valuation τ sig (Elt F))

theorem keep0 {r : Ref sig .tc} (h : r ∉ w0) : after hostOps0 V (Proc.devRef .tc r) = V (Proc.devRef .tc r) :=
  after_of_writes_sub hostOps0 V w0_sub h
theorem keep1 {r : Ref sig .tc} (h : r ∉ w1) : after hostOps1 V (Proc.devRef .tc r) = V (Proc.devRef .tc r) :=
  after_of_writes_sub hostOps1 V w1_sub h
theorem keep11 {r : Ref sig .tc} (h : r ∉ w11) : after hostOps1_1 V (Proc.devRef .tc r) = V (Proc.devRef .tc r) :=
  after_of_writes_sub hostOps1_1 V w11_sub h
theorem keep12 {r : Ref sig .tc} (h : r ∉ w12) : after hostOps1_2 V (Proc.devRef .tc r) = V (Proc.devRef .tc r) :=
  after_of_writes_sub hostOps1_2 V w12_sub h
theorem keep13 {r : Ref sig .tc} (h : r ∉ w13) : after hostOps1_3 V (Proc.devRef .tc r) = V (Proc.devRef .tc r) :=
  after_of_writes_sub hostOps1_3 V w13_sub h
theorem keep14 {r : Ref sig .tc} (h : r ∉ w14) : after hostOps1_4 V (Proc.devRef .tc r) = V (Proc.devRef .tc r) :=
  after_of_writes_sub hostOps1_4 V w14_sub h
theorem keep15 {r : Ref sig .tc} (h : r ∉ w15) : after hostOps1_5 V (Proc.devRef .tc r) = V (Proc.devRef .tc r) :=
  after_of_writes_sub hostOps1_5 V w15_sub h

/-- Before the first launch: the two halves of the message weight side by side. -/
theorem s0_v6 : (after hostOps0 V (Proc.devRef .tc main_v6) : FVec F S64x128 .f32) = wcat (V (Proc.devRef .tc main_arg2)) := by
  after_results
  rfl
/-- Before the first launch: the source endpoints, flat. -/
theorem s0_v1 : (after hostOps0 V (Proc.devRef .tc main_v1) : IVec S800000 32) = srcIdx (V (Proc.devRef .tc main_arg1)) := by
  after_results
  rfl
/-- Before the first launch: the destination endpoints, flat. -/
theorem s0_v3 : (after hostOps0 V (Proc.devRef .tc main_v3) : IVec S800000 32) = dstIdx (V (Proc.devRef .tc main_arg1)) := by
  after_results
  rfl

/-- The first 64 columns of the first launch's result. -/
theorem s1_v8 : (after hostOps1 V (Proc.devRef .tc main_v8) : FVec F S50000x64 .f32)
    = extractStridedSlice S50000x64 ![0, 0] (V (Proc.devRef .tc main_v7)) slices_S50000x128_S50000x64_0_0 := by
  after_results
/-- The last 64 columns of the first launch's result. -/
theorem s1_v9 : (after hostOps1 V (Proc.devRef .tc main_v9) : FVec F S50000x64 .f32)
    = extractStridedSlice S50000x64 ![0, 64] (V (Proc.devRef .tc main_v7)) slices_S50000x128_S50000x64_0_64 := by
  after_results

/-- The guarded row lookup of the first 64 columns at the source endpoints. -/
theorem s11_v10 : (after hostOps1_1 V (Proc.devRef .tc main_v10) : FVec F S800000x64 .f32)
    = take (V (Proc.devRef .tc main_v8)) (V (Proc.devRef .tc main_v1)) := by
  after_results_simp
  simp only [ofBuf_toBuf]
  simp only [TRef.ofBuf, TRef.toBuf, cast_eq]
  rfl
/-- The guarded row lookup of the last 64 columns at the destination endpoints. -/
theorem s12_v11 : (after hostOps1_2 V (Proc.devRef .tc main_v11) : FVec F S800000x64 .f32)
    = take (V (Proc.devRef .tc main_v9)) (V (Proc.devRef .tc main_v3)) := by
  after_results_simp
  simp only [ofBuf_toBuf]
  simp only [TRef.ofBuf, TRef.toBuf, cast_eq]
  rfl

/-- The two lookups added, plus the bias along every row. -/
theorem s13_v15 : (after hostOps1_3 V (Proc.devRef .tc main_v15) : FVec F S800000x64 .f32)
    = addf (addf (V (Proc.devRef .tc main_v10) : FVec F S800000x64 .f32) (V (Proc.devRef .tc main_v11)))
        (broadcastInDim S800000x64 ![0, 1] bcast_S1x64_S800000x64_0_1
          (broadcastInDim S1x64 ![1] bcast_S64_S1x64_1 (V (Proc.devRef .tc main_arg3) : FVec F S64 .f32))) := by
  after_results

/-- The relu: the maximum with zero. -/
theorem s14_v16 : (after hostOps1_4 V (Proc.devRef .tc main_v16) : FVec F S800000x64 .f32)
    = maximumf (V (Proc.devRef .tc main_v15) : FVec F S800000x64 .f32)
        (broadcastInDim S800000x64 ![] bcast_S_S800000x64 (constant S_ .f32 0x00000000#32)) := by
  after_results_simp
  simp only [ofBuf_toBuf]
  simp only [TRef.ofBuf, TRef.toBuf, cast_eq]

/-- Just before the second launch: the messages summed into their destination nodes. -/
theorem s15_v19 : (after hostOps1_5 V (Proc.devRef .tc main_v19) : FVec F S50000x64 .f32)
    = aggK (colOf (V (Proc.devRef .tc main_v3))) (V (Proc.devRef .tc main_v16)) := by
  after_results
  rfl
theorem s15_v20 : (after hostOps1_5 V (Proc.devRef .tc main_v20) : FVec F S64x64 .f32) = wTop (V (Proc.devRef .tc main_arg4)) := by
  after_results
  rfl
theorem s15_v21 : (after hostOps1_5 V (Proc.devRef .tc main_v21) : FVec F S64x64 .f32) = wBot (V (Proc.devRef .tc main_arg4)) := by
  after_results
  rfl
theorem s15_v22 : (after hostOps1_5 V (Proc.devRef .tc main_v22) : FVec F S1x64 .f32) = asRow (V (Proc.devRef .tc main_arg5)) := by
  after_results
  rfl
theorem s15_v23 : (after hostOps1_5 V (Proc.devRef .tc main_v23) : FVec F S1x64 .f32) = asRow (V (Proc.devRef .tc main_arg6)) := by
  after_results
  rfl
theorem s15_v24 : (after hostOps1_5 V (Proc.devRef .tc main_v24) : FVec F S1x64 .f32) = asRow (V (Proc.devRef .tc main_arg7)) := by
  after_results
  rfl

end Stretches

/-! ## The fold from the launch memory, read at the buffers the two launches find -/

variable (m : (ℓ : Loc nD τ sig) → Buf (Elt F) ℓ) (ρ : Dev nD → PrngReg)

/-- A buffer that is no array of the first launch and that no operation before it writes holds, after the first
    launch, what the launch memory held. -/
theorem W2_keep (c : Dev nD) {r : Ref sig .tc} (hw : ∀ w, Pipeline.arrRef spec0 w ≠ r) (h : r ∉ w0) :
    W2 m ρ c (Proc.devRef .tc r) = m ((c.tc : Thread nD τ).loc r) :=
  (W2_of_ne m ρ c r hw).trans ((keep0 (W0 m ρ c) h).trans rfl)

/-- The node features are the first launch's first input array: it leaves them as launched. -/
theorem W2_arg0 (c : Dev nD) : W2 m ρ c (Proc.devRef .tc main_arg0) = m ((c.tc : Thread nD τ).loc main_arg0) :=
  (W2_arr m ρ c 0).trans <| (((dat0 (V1 m ρ) c).arrAt_in 0 rfl _).trans (A_eq0 (V1 m ρ) c 0)).trans <|
    (keep0 (W0 m ρ c) (r := main_arg0) (by decide)).trans rfl

theorem W3_keep (c : Dev nD) {r : Ref sig .tc} (h1 : r ∉ w1) : W3 m ρ c (Proc.devRef .tc r) = W2 m ρ c (Proc.devRef .tc r) :=
  keep1 (W2 m ρ c) h1
theorem W4_keep (c : Dev nD) {r : Ref sig .tc} (h11 : r ∉ w11) (h1 : r ∉ w1) :
    W4 m ρ c (Proc.devRef .tc r) = W2 m ρ c (Proc.devRef .tc r) :=
  (keep11 (W3 m ρ c) h11).trans (W3_keep m ρ c h1)
theorem W5_keep (c : Dev nD) {r : Ref sig .tc} (h12 : r ∉ w12) (h11 : r ∉ w11) (h1 : r ∉ w1) :
    W5 m ρ c (Proc.devRef .tc r) = W2 m ρ c (Proc.devRef .tc r) :=
  (keep12 (W4 m ρ c) h12).trans (W4_keep m ρ c h11 h1)
theorem W7_keep (c : Dev nD) {r : Ref sig .tc} (h14 : r ∉ w14) (h13 : r ∉ w13) (h12 : r ∉ w12) (h11 : r ∉ w11) (h1 : r ∉ w1) :
    W7 m ρ c (Proc.devRef .tc r) = W2 m ρ c (Proc.devRef .tc r) :=
  (keep14 (W6 m ρ c) h14).trans ((keep13 (W5 m ρ c) h13).trans (W5_keep m ρ c h12 h11 h1))

/-- After the first launch the flat endpoint vectors are still those of the launched edge list. -/
theorem W2_v1 (c : Dev nD) : (W2 m ρ c (Proc.devRef .tc main_v1) : IVec S800000 32) = srcIdx (m ((c.tc : Thread nD τ).loc main_arg1)) :=
  (W2_of_ne m ρ c main_v1 (by decide)).trans (s0_v1 (W0 m ρ c))
theorem W2_v3 (c : Dev nD) : (W2 m ρ c (Proc.devRef .tc main_v3) : IVec S800000 32) = dstIdx (m ((c.tc : Thread nD τ).loc main_arg1)) :=
  (W2_of_ne m ρ c main_v3 (by decide)).trans (s0_v3 (W0 m ρ c))

/-- The source-side lookup, from the first launch's result and the launched edge list. -/
theorem W5_v10 (c : Dev nD) : (W5 m ρ c (Proc.devRef .tc main_v10) : FVec F S800000x64 .f32)
    = take (extractStridedSlice S50000x64 ![0, 0] (W2 m ρ c (Proc.devRef .tc main_v7)) slices_S50000x128_S50000x64_0_0)
        (srcIdx (m ((c.tc : Thread nD τ).loc main_arg1))) := by
  refine (keep12 (W4 m ρ c) (r := main_v10) (by decide)).trans ?_
  refine (s11_v10 (W3 m ρ c)).trans ?_
  rw [show (W3 m ρ c (Proc.devRef .tc main_v8) : FVec F S50000x64 .f32) = _ from s1_v8 (W2 m ρ c),
    show (W3 m ρ c (Proc.devRef .tc main_v1) : IVec S800000 32) = _ from (W3_keep m ρ c (r := main_v1) (by decide)).trans (W2_v1 m ρ c)]

/-- The destination-side lookup, from the first launch's result and the launched edge list. -/
theorem W5_v11 (c : Dev nD) : (W5 m ρ c (Proc.devRef .tc main_v11) : FVec F S800000x64 .f32)
    = take (extractStridedSlice S50000x64 ![0, 64] (W2 m ρ c (Proc.devRef .tc main_v7)) slices_S50000x128_S50000x64_0_64)
        (dstIdx (m ((c.tc : Thread nD τ).loc main_arg1))) := by
  refine (s12_v11 (W4 m ρ c)).trans ?_
  rw [show (W4 m ρ c (Proc.devRef .tc main_v9) : FVec F S50000x64 .f32) = _ from
      (keep11 (W3 m ρ c) (r := main_v9) (by decide)).trans (s1_v9 (W2 m ρ c)),
    show (W4 m ρ c (Proc.devRef .tc main_v3) : IVec S800000 32) = _ from
      (W4_keep m ρ c (r := main_v3) (by decide) (by decide)).trans (W2_v3 m ρ c)]

/-- The edge messages, from the first launch's result, the launched edge list and the launched bias. -/
theorem W7_v16 (c : Dev nD) : (W7 m ρ c (Proc.devRef .tc main_v16) : FVec F S800000x64 .f32)
    = msgK (W2 m ρ c (Proc.devRef .tc main_v7)) (m ((c.tc : Thread nD τ).loc main_arg1)) (m ((c.tc : Thread nD τ).loc main_arg3)) := by
  refine (s14_v16 (W6 m ρ c)).trans ?_
  rw [show (W6 m ρ c (Proc.devRef .tc main_v15) : FVec F S800000x64 .f32) = _ from s13_v15 (W5 m ρ c),
    W5_v10 m ρ c, W5_v11 m ρ c,
    show (W5 m ρ c (Proc.devRef .tc main_arg3) : FVec F S64 .f32) = _ from
      (W5_keep m ρ c (r := main_arg3) (by decide) (by decide) (by decide)).trans (W2_keep m ρ c (by decide) (by decide))]
  rfl

/-! ## What the two launches find -/

theorem V1_arg0 (c : Dev nD) : V1 m ρ c main_arg0 = m ((c.tc : Thread nD τ).loc main_arg0) :=
  (keep0 (W0 m ρ c) (r := main_arg0) (by decide)).trans rfl
theorem V1_v6 (c : Dev nD) : (V1 m ρ c main_v6 : FVec F S64x128 .f32) = wcat (m ((c.tc : Thread nD τ).loc main_arg2)) :=
  s0_v6 (W0 m ρ c)
theorem V8_arg0 (c : Dev nD) : V8 m ρ c main_arg0 = m ((c.tc : Thread nD τ).loc main_arg0) :=
  (keep15 (W7 m ρ c) (r := main_arg0) (by decide)).trans <|
    (W7_keep m ρ c (r := main_arg0) (by decide) (by decide) (by decide) (by decide) (by decide)).trans (W2_arg0 m ρ c)
theorem V8_v19 (c : Dev nD) : (V8 m ρ c main_v19 : FVec F S50000x64 .f32)
    = aggK (colOf (dstIdx (m ((c.tc : Thread nD τ).loc main_arg1))))
        (msgK (W2 m ρ c (Proc.devRef .tc main_v7)) (m ((c.tc : Thread nD τ).loc main_arg1)) (m ((c.tc : Thread nD τ).loc main_arg3))) := by
  refine (s15_v19 (W7 m ρ c)).trans ?_
  rw [show (W7 m ρ c (Proc.devRef .tc main_v3) : IVec S800000 32) = _ from
      (W7_keep m ρ c (r := main_v3) (by decide) (by decide) (by decide) (by decide) (by decide)).trans (W2_v3 m ρ c),
    W7_v16 m ρ c]
theorem V8_v20 (c : Dev nD) : (V8 m ρ c main_v20 : FVec F S64x64 .f32) = wTop (m ((c.tc : Thread nD τ).loc main_arg4)) := by
  refine (s15_v20 (W7 m ρ c)).trans ?_
  rw [show W7 m ρ c (Proc.devRef .tc main_arg4) = _ from
    (W7_keep m ρ c (r := main_arg4) (by decide) (by decide) (by decide) (by decide) (by decide)).trans (W2_keep m ρ c (by decide) (by decide))]
theorem V8_v21 (c : Dev nD) : (V8 m ρ c main_v21 : FVec F S64x64 .f32) = wBot (m ((c.tc : Thread nD τ).loc main_arg4)) := by
  refine (s15_v21 (W7 m ρ c)).trans ?_
  rw [show W7 m ρ c (Proc.devRef .tc main_arg4) = _ from
    (W7_keep m ρ c (r := main_arg4) (by decide) (by decide) (by decide) (by decide) (by decide)).trans (W2_keep m ρ c (by decide) (by decide))]
theorem V8_v22 (c : Dev nD) : (V8 m ρ c main_v22 : FVec F S1x64 .f32) = asRow (m ((c.tc : Thread nD τ).loc main_arg5)) := by
  refine (s15_v22 (W7 m ρ c)).trans ?_
  rw [show W7 m ρ c (Proc.devRef .tc main_arg5) = _ from
    (W7_keep m ρ c (r := main_arg5) (by decide) (by decide) (by decide) (by decide) (by decide)).trans (W2_keep m ρ c (by decide) (by decide))]
theorem V8_v23 (c : Dev nD) : (V8 m ρ c main_v23 : FVec F S1x64 .f32) = asRow (m ((c.tc : Thread nD τ).loc main_arg6)) := by
  refine (s15_v23 (W7 m ρ c)).trans ?_
  rw [show W7 m ρ c (Proc.devRef .tc main_arg6) = _ from
    (W7_keep m ρ c (r := main_arg6) (by decide) (by decide) (by decide) (by decide) (by decide)).trans (W2_keep m ρ c (by decide) (by decide))]
theorem V8_v24 (c : Dev nD) : (V8 m ρ c main_v24 : FVec F S1x64 .f32) = asRow (m ((c.tc : Thread nD τ).loc main_arg7)) := by
  refine (s15_v24 (W7 m ρ c)).trans ?_
  rw [show W7 m ρ c (Proc.devRef .tc main_arg7) = _ from
    (W7_keep m ρ c (r := main_arg7) (by decide) (by decide) (by decide) (by decide) (by decide)).trans (W2_keep m ρ c (by decide) (by decide))]

end Cert.KernelIdeal.KHost

end
-- ==== Proof.SpecLemmas.lean ====
/-
  Two facts the specification's readers share: a 128-long sum is the sum of its two 64-long halves, and a row
  gather reads, at edge e and column j, column j of the row the edge's start index names (read signed and clamped
  into the table).
-/
import proofs.«417284_j90692529422948_2_alg».proof.Proof.Spec
import Idealize.ShloMosaic.Lib.ValueIdx
import Idealize.ShloMosaic.Lib.StableHlo.Predicate

noncomputable section

namespace Cert.Spec

open Idealize.ShloMosaic Idealize.ShloMosaic.ValueIdx

/-- A sum over 128 positions is the sum over its first 64 plus the sum over its last 64. -/
theorem sum_split (f : Fin 128 → EReal) : ∑ k : Fin 128, f k = (∑ k : Fin 64, f (lo k)) + ∑ k : Fin 64, f (hi k) := by
  -- 128 = 64 + 64: the first 64 positions are the left summand's image, the last 64 the right summand's
  exact Fin.sum_univ_add (a := 64) (b := 64) (f : Fin (64 + 64) → EReal)

/-- A row gather read at (e, j): row `nodeOf idx e` of the table, column j. The dimension numbers are those of
    `table[idx]` over a [N x C] table: axis 0 collapsed and start-indexed, axis 1 an offset axis of full width. -/
theorem gather_row {α : Type} (d : GatherDims ⟨2, ![50000, 64]⟩ ⟨2, ![800000, 1]⟩ ⟨2, ![800000, 64]⟩)
    (hoff : d.offsetDims = [1]) (hcoll : d.collapsedSliceDims = [0]) (hob : d.operandBatchingDims = [])
    (hsim : d.startIndexMap = [0]) (hivd : d.indexVectorDim = 1) (hss : d.sliceSizes = ![1, 64])
    (x : (⟨2, ![50000, 64]⟩ : Shape).Idx → α) (idx : IVec ⟨2, ![800000, 1]⟩ 32) (e : Fin 800000) (j : Fin 64) :
    Host.gather d x idx (ix2 e j) = x (ix2 (nodeOf idx e) j) := by
  unfold Host.gather
  congr 1
  have hb : ∀ a : Fin 2, a ∉ d.operandBatchingDims := fun a => by rw [hob]; exact List.not_mem_nil
  -- the result's one batch axis is axis 0, its one offset axis is axis 1
  have hbd : ∀ X : Fin 2, X ∈ d.batchDims → X = 0 := by
    intro X hX
    have h' : X ∈ (⟨2, ![800000, 64]⟩ : Shape).kept d.offsetDims := hX
    rw [hoff] at h'
    have h1 : X ∉ [(1 : Fin 2)] := of_decide_eq_true (List.mem_filter.1 h').2
    have h2 : X ≠ 1 := fun h => h1 (List.mem_singleton.2 h)
    have h3 : X.val ≠ 1 := fun h => h2 (Fin.ext h)
    have h4 := X.isLt
    apply Fin.ext
    show X.val = 0
    omega
  have hod : ∀ X : Fin 2, X ∈ d.offsetDims → X = 1 := by
    intro X hX
    rw [hoff] at hX
    exact List.mem_singleton.1 hX
  -- axis 0: collapsed and start-indexed; the start is the clamped index, no batching or offset part
  have h0 : (d.operandIdx (ix2 e j) idx (0 : Fin 2)).val = (nodeOf idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hsi : ∀ h, d.siIdx (ix2 e j) ⟨List.idxOf (0 : Fin 2) d.startIndexMap, h⟩ = StableHlo.Predicate.ixP e := by
      intro h
      funext b
      match b with
      | ⟨0, _⟩ =>
        unfold GatherDims.siIdx
        rw [dif_neg (by rw [hivd]; simp)]
        unfold GatherDims.siCoord
        apply Fin.ext
        simp only [Fin.val_cast]
        have hE : ∀ X : Fin 2, X ∈ d.batchDims → ((ix2 e j : (⟨2, ![800000, 64]⟩ : Shape).Idx) X).val = e.val :=
          fun X hX => by rw [hbd X hX]
        exact hE _ (List.getElem_mem _)
      | ⟨1, _⟩ =>
        unfold GatherDims.siIdx
        rw [dif_pos (by rw [hivd])]
        apply Fin.ext
        show List.idxOf (0 : Fin 2) d.startIndexMap = 0
        rw [hsim]; simp
    simp only [GatherDims.operandIdx, GatherDims.batchCoord_eq_zero _ _ _ (hb _), GatherDims.offCoord_eq_zero _ _ _ hk,
      Nat.add_zero, GatherDims.start, dif_pos hm, hsi]
    show min (idx (StableHlo.Predicate.ixP e)).toInt.toNat (50000 - d.sliceSizes 0)
      = min (idx (StableHlo.Predicate.ixP e)).toInt.toNat (50000 - 1)
    rw [hsl]
  -- axis 1: an offset axis of full width, not start-indexed; the coordinate is the result's own column
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start,
      dif_neg hm, Nat.zero_add]
    unfold GatherDims.offCoord
    rw [dif_pos hk]
    have hJ : ∀ X : Fin 2, X ∈ d.offsetDims → ((ix2 e j : (⟨2, ![800000, 64]⟩ : Shape).Idx) X).val = j.val :=
      fun X hX => by rw [hod X hX]
    exact hJ _ (List.getElem_mem _)
  funext a
  apply Fin.ext
  match a with
  | ⟨0, _⟩ => exact h0
  | ⟨1, _⟩ => exact h1

end Cert.Spec

end
-- ==== Proof.KMsg.lean ====
/-
  The kernel program's edge messages, read index by index: on an edge list of node numbers every guarded lookup
  is inside the table, so a message is relu of the source node's projected row plus the destination node's
  projected row plus the bias, which is the specification's message.
-/
import proofs.«417284_j90692529422948_2_alg».proof.Proof.KTerms
import proofs.«417284_j90692529422948_2_alg».proof.Proof.Spec
import proofs.«417284_j90692529422948_2_alg».proof.Proof.SpecLemmas
import Idealize.ShloMosaic.Lib.ValueIdx
import Idealize.ShloMosaic.Lib.Pipeline.Value
import Idealize.ShloMosaic.Lib.ReduceAll
import Idealize.ShloMosaic.Lib.StableHlo.Predicate
import Idealize.ShloMosaic.PureOps.Ideal.Laws

noncomputable section

namespace Cert.KernelIdeal.KMsg

open Idealize.ShloMosaic Cert.KernelIdeal Cert.KernelIdeal.Terms
open Idealize.ShloMosaic.ValueIdx
open Cert.KernelIdeal.Facts₀
open Idealize.ShloMosaic.StableHlo.Predicate (ixP)

/-! ## The two rows of the edge list, flat -/

/-- The flat source endpoints at e are the edge list at (0, e). -/
theorem srcIdx_apply (ei : IVec S2x800000 32) (e : Fin 800000) : srcIdx ei (ix1 e) = ei (ix2 (0 : Fin 2) e) := by
  unfold srcIdx
  refine (shapeCast_apply _ _ (ix1 e) (ix2 (0 : Fin 1) e) ?_).trans ?_
  · rw [Shape.rowMajor_val_two, Shape.rowMajor_val_one]
    show (0 : Nat) * 800000 + e.val = e.val
    omega
  · refine extractStridedSlice_apply _ _ _ _ (ix2 (0 : Fin 2) e) fun a => ?_
    match a with
    | ⟨0, _⟩ => rfl
    | ⟨1, _⟩ => show e.val = 0 + e.val; omega

/-- The flat destination endpoints at e are the edge list at (1, e). -/
theorem dstIdx_apply (ei : IVec S2x800000 32) (e : Fin 800000) : dstIdx ei (ix1 e) = ei (ix2 (1 : Fin 2) e) := by
  unfold dstIdx
  refine (shapeCast_apply _ _ (ix1 e) (ix2 (0 : Fin 1) e) ?_).trans ?_
  · rw [Shape.rowMajor_val_two, Shape.rowMajor_val_one]
    show (0 : Nat) * 800000 + e.val = e.val
    omega
  · refine extractStridedSlice_apply _ _ _ _ (ix2 (1 : Fin 2) e) fun a => ?_
    match a with
    | ⟨0, _⟩ => rfl
    | ⟨1, _⟩ => show e.val = 0 + e.val; omega

/-! ## Wrapping leaves a non-negative index alone -/

/-- An index that reads non-negative signed is not wrapped. -/
theorem wrapIdx_apply (v : IVec S800000 32) (i : S800000.Idx) (hv : 0 ≤ (v i).toInt) : wrapIdx v i = v i := by
  show Scalar.select (IntOp.cmpi .slt (v i) 0#32) (IntOp.addi (v i) 50000#32) (v i) = v i
  have hc : ¬ IntOp.cmpi .slt (v i) 0#32 = 1#1 := by
    rw [IntOp.cmpi_slt, show (0#32 : BitVec 32).toInt = 0 from by decide]
    omega
  rw [eq_zero_of_ne_one hc, select_zero]

/-- A flat vector as a one-column table reads, at row e, the vector at e. -/
theorem colOf_apply (v : IVec S800000 32) (e : Fin 800000) : colOf v (ixP e) = v (ix1 e) := by
  unfold colOf
  refine broadcastInDim_apply _ _ _ _ (ix1 e) fun a => ?_
  match a with
  | ⟨0, _⟩ => rfl

/-! ## The table test and the guarded lookup -/

/-- A fold over an index type of one element is the operation applied once. -/
theorem fold_fin_of_eq_one {α : Type} (op : α → α → α) [Std.Commutative op] [Std.Associative op] (b : α) {n : Nat}
    (hn : n = 1) (f : Fin n → α) : (Finset.univ : Finset (Fin n)).fold op b f = op (f ⟨0, by omega⟩) b := by
  subst hn
  rw [Finset.univ_unique, Finset.fold_singleton]
  rfl

/-- A one-column table with its column axis dropped is the flat vector. -/
theorem reduces_col : S800000x1.Reduces [1] S800000 := by decide

/-- Row e of the one-column table is the one index lying over e. -/
theorem lift_col (e : Fin 800000) (k : Fin (S800000x1.size 1)) : reduces_col.lift (ix1 e) k = ixP e := by
  funext c
  apply Fin.ext
  rw [Shape.Reduces.lift_val]
  match c with
  | ⟨0, _⟩ => rfl
  | ⟨1, _⟩ =>
    have hk : k.val < 1 := k.isLt
    show k.val = 0
    omega

/-- A start index between 0 and 49999 passes the table test. -/
theorem inTable_apply (c : IVec S800000x1 32) (e : Fin 800000)
    (h0 : 0 ≤ (c (ixP e)).toInt) (h1 : (c (ixP e)).toInt ≤ 49999) : inTable c (ix1 e) = 1#1 := by
  unfold inTable
  rw [Host.reduce_eq_fold_single IntOp.andi _ _ _ reduces_col,
    fold_fin_of_eq_one IntOp.andi _ (rfl : S800000x1.size 1 = 1), Function.comp_apply, lift_col]
  show IntOp.andi (IntOp.andi (IntOp.cmpi .sge (c (ixP e)) 0#32) (IntOp.cmpi .sle (c (ixP e)) 49999#32)) 1#1 = 1#1
  rw [IntOp.andi_eq_one, IntOp.andi_eq_one, IntOp.cmpi_sge, IntOp.cmpi_sle,
    show (0#32 : BitVec 32).toInt = 0 from by decide, show (49999#32 : BitVec 32).toInt = 49999 from by decide]
  exact ⟨⟨h0, h1⟩, rfl⟩

/-- The guarded lookup at an index that is a node number is the table's row at that node. -/
theorem take_apply (t : FVec Ideal S50000x64 .f32) (v : IVec S800000 32) (e : Fin 800000) (j : Fin 64)
    (h0 : 0 ≤ (v (ix1 e)).toInt) (h1 : (v (ix1 e)).toInt < 50000) :
    take t v (ix2 e j) = t (ix2 (Cert.Spec.nodeOf (colOf (wrapIdx v)) e) j) := by
  have hc : colOf (wrapIdx v) (ixP e) = v (ix1 e) := by rw [colOf_apply, wrapIdx_apply v _ h0]
  have hin : inTable (colOf (wrapIdx v)) (ix1 e) = 1#1 :=
    inTable_apply _ e (by rw [hc]; exact h0) (by rw [hc]; omega)
  unfold take
  rw [select_apply]
  rw [broadcastInDim_apply _ _ (inTable (colOf (wrapIdx v))) (ix2 e j) (ix1 e) (fun a => by
    match a with
    | ⟨0, _⟩ => rfl)]
  rw [hin, select_one]
  exact Cert.Spec.gather_row _ rfl rfl rfl rfl rfl rfl t _ e j

/-! ## The two column halves of the projected rows -/

/-- Columns 0..63 of a 128-column array: column j is column `lo j`. -/
theorem sliceLeft_apply (pq : FVec Ideal S50000x128 .f32) (r : Fin 50000) (j : Fin 64) :
    extractStridedSlice S50000x64 ![0, 0] pq slices_S50000x128_S50000x64_0_0 (ix2 r j) = pq (ix2 r (Cert.Spec.lo j)) := by
  refine extractStridedSlice_apply _ _ _ _ _ fun a => ?_
  match a with
  | ⟨0, _⟩ => show r.val = 0 + r.val; omega
  | ⟨1, _⟩ => show j.val = 0 + j.val; omega

/-- Columns 64..127 of a 128-column array: column j is column `hi j`. -/
theorem sliceRight_apply (pq : FVec Ideal S50000x128 .f32) (r : Fin 50000) (j : Fin 64) :
    extractStridedSlice S50000x64 ![0, 64] pq slices_S50000x128_S50000x64_0_64 (ix2 r j) = pq (ix2 r (Cert.Spec.hi j)) := by
  refine extractStridedSlice_apply _ _ _ _ _ fun a => ?_
  match a with
  | ⟨0, _⟩ => show r.val = 0 + r.val; omega
  | ⟨1, _⟩ => rfl

/-- The side-by-side weight at a column of its left half is the weight's first 64 rows. -/
theorem wcat_lo (Wm : FVec Ideal S128x64 .f32) (k j : Fin 64) :
    wcat Wm (ix2 k (Cert.Spec.lo j)) = Wm (ix2 (Cert.Spec.lo k) j) := by
  unfold wcat
  refine (concatenate_pair_apply_left (s₁ := S64x64) (s₂ := S64x64) (1 : Fin 2) _ _ _ (ix2 k (Cert.Spec.lo j)) rfl (ix2 k j) fun b => ?_).trans ?_
  · match b with
    | ⟨0, _⟩ => rfl
    | ⟨1, _⟩ => rfl
  · refine extractStridedSlice_apply _ _ _ _ _ fun a => ?_
    match a with
    | ⟨0, _⟩ => show k.val = 0 + k.val; omega
    | ⟨1, _⟩ => show j.val = 0 + j.val; omega

/-- The side-by-side weight at a column of its right half is the weight's last 64 rows. -/
theorem wcat_hi (Wm : FVec Ideal S128x64 .f32) (k j : Fin 64) :
    wcat Wm (ix2 k (Cert.Spec.hi j)) = Wm (ix2 (Cert.Spec.hi k) j) := by
  unfold wcat
  refine (concatenate_pair_apply_right (s₁ := S64x64) (s₂ := S64x64) (1 : Fin 2) _ _ _ (ix2 k (Cert.Spec.hi j)) rfl rfl (ix2 k j) (fun b hb => ?_) ?_).trans ?_
  · match b with
    | ⟨0, _⟩ => rfl
    | ⟨1, _⟩ => exact absurd rfl hb
  · show j.val + 64 = 64 + j.val
    omega
  · refine extractStridedSlice_apply _ _ _ _ _ fun a => ?_
    match a with
    | ⟨0, _⟩ => rfl
    | ⟨1, _⟩ => show j.val = 0 + j.val; omega

/-- A node's projected row at a left column: its features through the first 64 rows of the weight. -/
theorem rows_lo (nf : FVec Ideal S50000x64 .f32) (Wm : FVec Ideal S128x64 .f32) (n : Fin 50000) (j : Fin 64) :
    Cert.Spec.rowsThrough nf (wcat Wm) (ix2 n (Cert.Spec.lo j)) = ∑ k : Fin 64, nf (ix2 n k) * Wm (ix2 (Cert.Spec.lo k) j) := by
  show ∑ k : Fin 64, nf (ix2 n k) * wcat Wm (ix2 k (Cert.Spec.lo j)) = _
  exact Finset.sum_congr rfl fun k _ => by rw [wcat_lo]

/-- A node's projected row at a right column: its features through the last 64 rows of the weight. -/
theorem rows_hi (nf : FVec Ideal S50000x64 .f32) (Wm : FVec Ideal S128x64 .f32) (n : Fin 50000) (j : Fin 64) :
    Cert.Spec.rowsThrough nf (wcat Wm) (ix2 n (Cert.Spec.hi j)) = ∑ k : Fin 64, nf (ix2 n k) * Wm (ix2 (Cert.Spec.hi k) j) := by
  show ∑ k : Fin 64, nf (ix2 n k) * wcat Wm (ix2 k (Cert.Spec.hi j)) = _
  exact Finset.sum_congr rfl fun k _ => by rw [wcat_hi]

/-! ## The bias and the zero -/

/-- The bias laid along every edge reads, at (e, j), the bias at j. -/
theorem bias_apply (bm : FVec Ideal S64 .f32) (e : Fin 800000) (j : Fin 64) :
    broadcastInDim S800000x64 ![0, 1] bcast_S1x64_S800000x64_0_1 (broadcastInDim S1x64 ![1] bcast_S64_S1x64_1 bm) (ix2 e j)
      = bm (ix1 j) := by
  refine (broadcastInDim_apply _ _ _ (ix2 e j) (ix2 (0 : Fin 1) j) fun a => ?_).trans ?_
  · match a with
    | ⟨0, _⟩ => rfl
    | ⟨1, _⟩ => rfl
  · refine broadcastInDim_apply _ _ _ _ (ix1 j) fun a => ?_
    match a with
    | ⟨0, _⟩ => rfl

/-- The zero splat is the extended real 0 everywhere. -/
theorem zero_apply (i : S800000x64.Idx) :
    broadcastInDim S800000x64 ![] bcast_S_S800000x64 (constant (F := Ideal) S_ .f32 0x00000000#32) i = (0 : EReal) :=
  Ideal.ofBits_zero_f32

/-! ## The messages -/

/-- The program's message of edge e at feature j is the specification's. -/
theorem msgK_apply (nf : FVec Ideal S50000x64 .f32) (ei : IVec S2x800000 32) (Wm : FVec Ideal S128x64 .f32) (bm : FVec Ideal S64 .f32)
    (h : Cert.Spec.InRange ei) (e : Fin 800000) (j : Fin 64) :
    msgK (F := Ideal) (Cert.Spec.rowsThrough nf (wcat Wm)) ei bm (ix2 e j)
      = Cert.Spec.msg nf Wm bm (Cert.Spec.nodeOf (colOf (wrapIdx (srcIdx ei)))) (Cert.Spec.nodeOf (colOf (wrapIdx (dstIdx ei))))
          (ix2 e j) := by
  have hs := h (ix2 (0 : Fin 2) e)
  have hd := h (ix2 (1 : Fin 2) e)
  rw [← srcIdx_apply ei e] at hs
  rw [← dstIdx_apply ei e] at hd
  unfold msgK
  rw [maximumf_apply, addf_apply, addf_apply, take_apply _ _ e j hs.1 hs.2, take_apply _ _ e j hd.1 hd.2,
    sliceLeft_apply, sliceRight_apply, bias_apply, zero_apply, rows_lo, rows_hi]
  rfl

/-- With every index a node number, the messages built from the projected rows `nf · [W_top | W_bot]` are the
    specification's messages at the nodes the (wrapped) indices name. -/
theorem msgK_eq (nf : FVec Ideal S50000x64 .f32) (ei : IVec S2x800000 32) (Wm : FVec Ideal S128x64 .f32) (bm : FVec Ideal S64 .f32)
    (h : Cert.Spec.InRange ei) :
    msgK (F := Ideal) (Cert.Spec.rowsThrough nf (wcat Wm)) ei bm
      = Cert.Spec.msg nf Wm bm (Cert.Spec.nodeOf (colOf (wrapIdx (srcIdx ei)))) (Cert.Spec.nodeOf (colOf (wrapIdx (dstIdx ei)))) := by
  funext i
  exact (congrArg _ (eq_ix2 i)).trans ((msgK_apply nf ei Wm bm h (i 0) (i 1)).trans (congrArg _ (eq_ix2 i).symm))

end Cert.KernelIdeal.KMsg

end
-- ==== Proof.KOut.lean ====
/-
  The update in the kernel's form (two half weights, one-row vectors) is the update in the specification's form
  (one 128-row weight, plain vectors): a half weight is a block of rows of the whole, a one-row matrix its vector.
-/
import proofs.«417284_j90692529422948_2_alg».proof.Proof.KTerms
import proofs.«417284_j90692529422948_2_alg».proof.Proof.Spec
import Idealize.ShloMosaic.Lib.ValueIdx
import Idealize.ShloMosaic.Lib.Pipeline.Value
import Idealize.ShloMosaic.Lib.ValueLayout

noncomputable section

namespace Cert.KernelIdeal.KOut

open Idealize.ShloMosaic Idealize.ShloMosaic.ValueIdx Cert.KernelIdeal Cert.KernelIdeal.Terms

/-- The first half of the weight, read at (k, j): row k of the whole. -/
theorem wTop_apply (Wu : FVec Ideal S128x64 .f32) (k j : Fin 64) :
    wTop Wu (ix2 k j) = Wu (ix2 (Cert.Spec.lo k) j) := by
  unfold wTop
  exact slice2_axis0_apply 0 Wu _ k j (Cert.Spec.lo k) (Nat.zero_add _).symm

/-- The second half of the weight, read at (k, j): row 64 + k of the whole. -/
theorem wBot_apply (Wu : FVec Ideal S128x64 .f32) (k j : Fin 64) :
    wBot Wu (ix2 k j) = Wu (ix2 (Cert.Spec.hi k) j) := by
  unfold wBot
  exact slice2_axis0_apply 64 Wu _ k j (Cert.Spec.hi k) rfl

/-- A 64-vector as a one-row matrix, read at (0, j): the vector at j. -/
theorem asRow_apply (v : FVec Ideal S64 .f32) (j : Fin 64) : asRow v (ix2 (0 : Fin 1) j) = v (ix1 j) := by
  unfold asRow
  refine (shapeCast_addUnit_apply ![64] v _ (ix2 (0 : Fin 1) j)).trans (congrArg v ?_)
  funext c
  match c with
  | ⟨0, _⟩ => rfl

theorem outK_eq (x a : FVec Ideal S50000x64 .f32) (Wu : FVec Ideal S128x64 .f32) (bu ga be : FVec Ideal S64 .f32) :
    Cert.Spec.outK x a (wTop Wu) (wBot Wu) (asRow bu) (asRow ga) (asRow be) = Cert.Spec.out x a Wu bu ga be := by
  funext i
  unfold Cert.Spec.outK Cert.Spec.out Cert.Spec.lin
  simp only [wTop_apply, wBot_apply, asRow_apply]
  rw [asRow_apply ga (i 1), asRow_apply be (i 1)]

end Cert.KernelIdeal.KOut

end
-- ==== Proof.KValue.lean ====
/-
  The kernel program's result as one function of its arguments, at the ideal instance: the first launch leaves
  every node's row through the two halves of the message weight side by side; the host operations between the
  launches turn those rows into the edge messages and sum them into their destination nodes; the second launch
  leaves the normalised update of the node features and that sum. On an edge list of node numbers the messages are
  the specification's, so the result is the specification's update of the specification's aggregate.
-/
import proofs.«417284_j90692529422948_2_alg».proof.Proof.Gen.KernelIdeal.Frame
import proofs.«417284_j90692529422948_2_alg».proof.Proof.Spec
import proofs.«417284_j90692529422948_2_alg».proof.Proof.KTerms
import proofs.«417284_j90692529422948_2_alg».proof.Proof.Reg0
import proofs.«417284_j90692529422948_2_alg».proof.Proof.Reg1
import proofs.«417284_j90692529422948_2_alg».proof.Proof.KHost
import proofs.«417284_j90692529422948_2_alg».proof.Proof.KMsg
import proofs.«417284_j90692529422948_2_alg».proof.Proof.KOut

noncomputable section

namespace Cert.KernelIdeal.KValue

open Idealize.ShloMosaic Idealize.ShloMosaic.TcCoe Idealize.SL.Sem
open Cert.KernelIdeal Cert.KernelIdeal.Gen Cert.KernelIdeal.Terms

variable (m : (ℓ : Loc nD τ sig) → Buf (Elt Ideal) ℓ) (ρ : Dev nD → PrngReg)

/-- After the first launch its result array holds every node's row through [W_top | W_bot]. -/
theorem projected (c : Dev nD) :
    (W2 m ρ c (Proc.devRef .tc main_v7) : FVec Ideal S50000x128 .f32)
      = Cert.Spec.rowsThrough (m ((c.tc : Thread nD τ).loc main_arg0)) (wcat (F := Ideal) (m ((c.tc : Thread nD τ).loc main_arg2))) := by
  have h := W2_arr m ρ c 2
  have e := Cert.KernelIdeal.Reg0.final (V1 m ρ) c
  rw [Cert.KernelIdeal.KHost.V1_arg0 m ρ c, Cert.KernelIdeal.KHost.V1_v6 m ρ c] at e
  exact h.trans e

/-- The specification's aggregate, over the kernel program's own index tables. -/
def agg (c : Dev nD) : FVec Ideal S50000x64 .f32 :=
  aggK (F := Ideal) (colOf (dstIdx (m ((c.tc : Thread nD τ).loc main_arg1))))
    (Cert.Spec.msg (m ((c.tc : Thread nD τ).loc main_arg0)) (m ((c.tc : Thread nD τ).loc main_arg2)) (m ((c.tc : Thread nD τ).loc main_arg3))
      (Cert.Spec.nodeOf (colOf (wrapIdx (srcIdx (m ((c.tc : Thread nD τ).loc main_arg1))))))
      (Cert.Spec.nodeOf (colOf (wrapIdx (dstIdx (m ((c.tc : Thread nD τ).loc main_arg1)))))))

/-- At the last segment boundary the result buffer holds the specification's update of the node features and the
    specification's aggregate, when the edge list holds node numbers only. -/
theorem result (c : Dev nD) (hR : Cert.Spec.InRange (m ((c.tc : Thread nD τ).loc main_arg1))) :
    (W9 m ρ c (Proc.devRef .tc main_v25) : FVec Ideal S50000x64 .f32)
      = Cert.Spec.out (m ((c.tc : Thread nD τ).loc main_arg0)) (agg m c) (m ((c.tc : Thread nD τ).loc main_arg4)) (m ((c.tc : Thread nD τ).loc main_arg5)) (m ((c.tc : Thread nD τ).loc main_arg6)) (m ((c.tc : Thread nD τ).loc main_arg7)) := by
  have h := W9_arr m ρ c 7
  have e := Cert.KernelIdeal.Reg1.final (V8 m ρ) c
  rw [Cert.KernelIdeal.KHost.V8_arg0 m ρ c, Cert.KernelIdeal.KHost.V8_v19 m ρ c, Cert.KernelIdeal.KHost.V8_v20 m ρ c,
    Cert.KernelIdeal.KHost.V8_v21 m ρ c, Cert.KernelIdeal.KHost.V8_v22 m ρ c, Cert.KernelIdeal.KHost.V8_v23 m ρ c,
    Cert.KernelIdeal.KHost.V8_v24 m ρ c, projected m ρ c, Cert.KernelIdeal.KMsg.msgK_eq _ _ _ _ hR,
    Cert.KernelIdeal.KOut.outK_eq] at e
  exact h.trans e

end Cert.KernelIdeal.KValue

end
-- ==== Proof.RRun.lean ====
/-
  The reference program's run: it is a straight line of host operations (the functions it calls written out at
  their call sites), so every weakly fair execution ends with the result buffer at the operations' composed
  function of the arguments and the arguments as launched.
-/
import proofs.«417284_j90692529422948_2_alg».proof.Proof.Gen.ReferenceIdeal
import proofs.«417284_j90692529422948_2_alg».proof.Proof.RTerms
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo
open Cert.ReferenceIdeal.Terms

variable {F : FTy → Type} [FloatOps F]

/-- The program's 86 host operations in order, each called function's operations written out at its call
    over that call's own buffers: the two lookups of node rows, the message layer and its relu, the sum into the
    destination nodes, the update layer and its relu, the row mean, the variance (with its guarded divisor and
    its not-a-number alternative), and the normalisation. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v10 main_v17 main_v18 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    binary main_v18 main_arg2 main_v19 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg3 main_v20 (broadcastInDim S1x64 ![1] bcast_S64_S1x64_1 : (⟨S64, .f32⟩ : BufTy).Contents (Elt F) → (⟨S1x64, .f32⟩ : BufTy).Contents (Elt F)),
    unary main_v20 main_v21 (broadcastInDim S800000x64 ![0, 1] bcast_S1x64_S800000x64_0_1 : (⟨S1x64, .f32⟩ : BufTy).Contents (Elt F) → (⟨S800000x64, .f32⟩ : BufTy).Contents (Elt F)),
    binary main_v19 main_v21 main_v22 (addf : (⟨S800000x64, .f32⟩ : BufTy).Contents (Elt F) → (⟨S800000x64, .f32⟩ : BufTy).Contents (Elt F) → (⟨S800000x64, .f32⟩ : BufTy).Contents (Elt F)),
    TRef.nullary main_call0.cst (constant S_ .f32 0x00000000#32),
    TRef.unary main_call0.cst main_call0.v0 (broadcastInDim S800000x64 ![] bcast_S_S800000x64),
    TRef.binary (.of main_v22 : TRef sig ⟨S800000x64, .f32⟩) main_call0.v0 main_call0.v1 maximumf,
    nullary main_cst (constant S_ .f32 0x00000000#32),
    unary main_cst main_v24 (broadcastInDim S50000x64 ![] bcast_S_S50000x64 : (⟨S_, .f32⟩ : BufTy).Contents (Elt F) → (⟨S50000x64, .f32⟩ : BufTy).Contents (Elt F)),
    unary main_v3 main_v25 (broadcastInDim S800000x1 ![0] bcast_S800000_S800000x1_0 : (⟨S800000, .i32⟩ : BufTy).Contents (Elt F) → (⟨S800000x1, .i32⟩ : BufTy).Contents (Elt F)),
    ternary main_v24 main_v25 main_v23 main_v26 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_arg0 main_v26 main_v27 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    binary main_v27 main_arg4 main_v28 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg5 main_v29 (broadcastInDim S1x64 ![1] bcast_S64_S1x64_1 : (⟨S64, .f32⟩ : BufTy).Contents (Elt F) → (⟨S1x64, .f32⟩ : BufTy).Contents (Elt F)),
    unary main_v29 main_v30 (broadcastInDim S50000x64 ![0, 1] bcast_S1x64_S50000x64_0_1 : (⟨S1x64, .f32⟩ : BufTy).Contents (Elt F) → (⟨S50000x64, .f32⟩ : BufTy).Contents (Elt F)),
    binary main_v28 main_v30 main_v31 (addf : (⟨S50000x64, .f32⟩ : BufTy).Contents (Elt F) → (⟨S50000x64, .f32⟩ : BufTy).Contents (Elt F) → (⟨S50000x64, .f32⟩ : BufTy).Contents (Elt F)),
    TRef.nullary main_call1.cst (constant S_ .f32 0x00000000#32),
    TRef.unary main_call1.cst main_call1.v0 (broadcastInDim S50000x64 ![] bcast_S_S50000x64),
    TRef.binary (.of main_v31 : TRef sig ⟨S50000x64, .f32⟩) main_call1.v0 main_call1.v1 maximumf,
    nullary main_cst_3 (constant S_ .f32 0x00000000#32),
    binary main_v32 main_cst_3 main_v33 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v33 main_v34 (broadcastInDim S50000x1 ![0] bcast_S50000_S50000x1_0 : (⟨S50000, .f32⟩ : BufTy).Contents (Elt F) → (⟨S50000x1, .f32⟩ : BufTy).Contents (Elt F)),
    nullary main_cst_4 (constant S_ .f32 0x42800000#32),
    unary main_cst_4 main_v35 (broadcastInDim S50000x1 ![] bcast_S_S50000x1 : (⟨S_, .f32⟩ : BufTy).Contents (Elt F) → (⟨S50000x1, .f32⟩ : BufTy).Contents (Elt F)),
    binary main_v34 main_v35 main_v36 (Host.divf : (⟨S50000x1, .f32⟩ : BufTy).Contents (Elt F) → (⟨S50000x1, .f32⟩ : BufTy).Contents (Elt F) → (⟨S50000x1, .f32⟩ : BufTy).Contents (Elt F)),
    nullary main_c_5 (constantI S_ 32 0#32),
    TRef.nullary main_call2.cst (constant S_ .f32 0x00000000#32),
    TRef.binary (.of main_v32 : TRef sig ⟨S50000x64, .f32⟩) main_call2.cst main_call2.v0 (fun x v => Host.reduceAdd x v reducesTo_S50000x64_S50000_d1 h_S_),
    TRef.unary main_call2.v0 main_call2.v1 (broadcastInDim S50000x1 ![0] bcast_S50000_S50000x1_0),
    TRef.nullary main_call2.cst_0 (constant S_ .f32 0x42800000#32),
    TRef.unary main_call2.cst_0 main_call2.v2 (broadcastInDim S50000x1 ![] bcast_S_S50000x1),
    TRef.binary main_call2.v1 main_call2.v2 main_call2.v3 Host.divf,
    TRef.unary main_call2.v3 main_call2.v4 (broadcastInDim S50000x64 ![0, 1] bcast_S50000x1_S50000x64_0_1),
    TRef.binary (.of main_v32 : TRef sig ⟨S50000x64, .f32⟩) main_call2.v4 main_call2.v5 subf,
    TRef.binary main_call2.v5 main_call2.v5 main_call2.v6 mulf,
    TRef.unary (.of main_c_5 : TRef sig ⟨S_, .i32⟩) main_call2.v7 (sitofp .f32),
    TRef.nullary main_call2.cst_1 (constant S_ .f32 0x42800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x64_S50000_d1 h_S_),
    TRef.unary main_call2.v9 main_call2.v10 (broadcastInDim S50000x1 ![0] bcast_S50000_S50000x1_0),
    TRef.unary main_call2.v8 main_call2.v11 (broadcastInDim S50000x1 ![] bcast_S_S50000x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S50000x1 ![] bcast_S_S50000x1),
    TRef.ternary main_call2.v13 main_call2.v12 main_call2.call0.v1 main_call2.call0.v2 (fun p a b => select (broadcastInDim S50000x1 ![] bcast_S_S50000x1 p) a b),
    unary main_v36 main_v38 (broadcastInDim S50000x64 ![0, 1] bcast_S50000x1_S50000x64_0_1 : (⟨S50000x1, .f32⟩ : BufTy).Contents (Elt F) → (⟨S50000x64, .f32⟩ : BufTy).Contents (Elt F)),
    binary main_v32 main_v38 main_v39 (subf : (⟨S50000x64, .f32⟩ : BufTy).Contents (Elt F) → (⟨S50000x64, .f32⟩ : BufTy).Contents (Elt F) → (⟨S50000x64, .f32⟩ : BufTy).Contents (Elt F)),
    nullary main_cst_6 (constant S_ .f32 0x3727C5AC#32),
    unary main_cst_6 main_v40 (broadcastInDim S50000x1 ![] bcast_S_S50000x1 : (⟨S_, .f32⟩ : BufTy).Contents (Elt F) → (⟨S50000x1, .f32⟩ : BufTy).Contents (Elt F)),
    binary main_v37 main_v40 main_v41 (addf : (⟨S50000x1, .f32⟩ : BufTy).Contents (Elt F) → (⟨S50000x1, .f32⟩ : BufTy).Contents (Elt F) → (⟨S50000x1, .f32⟩ : BufTy).Contents (Elt F)),
    unary main_v41 main_v42 (Host.rsqrt : (⟨S50000x1, .f32⟩ : BufTy).Contents (Elt F) → (⟨S50000x1, .f32⟩ : BufTy).Contents (Elt F)),
    unary main_v42 main_v43 (broadcastInDim S50000x64 ![0, 1] bcast_S50000x1_S50000x64_0_1 : (⟨S50000x1, .f32⟩ : BufTy).Contents (Elt F) → (⟨S50000x64, .f32⟩ : BufTy).Contents (Elt F)),
    binary main_v39 main_v43 main_v44 (mulf : (⟨S50000x64, .f32⟩ : BufTy).Contents (Elt F) → (⟨S50000x64, .f32⟩ : BufTy).Contents (Elt F) → (⟨S50000x64, .f32⟩ : BufTy).Contents (Elt F)),
    unary main_arg6 main_v45 (broadcastInDim S1x64 ![1] bcast_S64_S1x64_1 : (⟨S64, .f32⟩ : BufTy).Contents (Elt F) → (⟨S1x64, .f32⟩ : BufTy).Contents (Elt F)),
    unary main_v45 main_v46 (broadcastInDim S50000x64 ![0, 1] bcast_S1x64_S50000x64_0_1 : (⟨S1x64, .f32⟩ : BufTy).Contents (Elt F) → (⟨S50000x64, .f32⟩ : BufTy).Contents (Elt F)),
    binary main_v44 main_v46 main_v47 (mulf : (⟨S50000x64, .f32⟩ : BufTy).Contents (Elt F) → (⟨S50000x64, .f32⟩ : BufTy).Contents (Elt F) → (⟨S50000x64, .f32⟩ : BufTy).Contents (Elt F)),
    unary main_arg7 main_v48 (broadcastInDim S1x64 ![1] bcast_S64_S1x64_1 : (⟨S64, .f32⟩ : BufTy).Contents (Elt F) → (⟨S1x64, .f32⟩ : BufTy).Contents (Elt F)),
    unary main_v48 main_v49 (broadcastInDim S50000x64 ![0, 1] bcast_S1x64_S50000x64_0_1 : (⟨S1x64, .f32⟩ : BufTy).Contents (Elt F) → (⟨S50000x64, .f32⟩ : BufTy).Contents (Elt F)),
    binary main_v47 main_v49 main_v50 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
/-- The program is that straight line: the called functions unfolded at their calls and the buffer records at
    their fields, both sides are one chain of steps once sequencing is re-associated. -/
theorem main_eq (c : Dev nD) : main (F := F) c = seq ops := by
  simp only [main, main_part0, main_part1, fn_relu.body, fn_relu_0.body, fn_var.body, fn_where.body, seq, bind_assoc, pure_bind]

/-- No buffer of the core is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- The two rows of the edge list, sliced and flattened. -/
abbrev segA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

/-- The source endpoints wrapped, and their rows of the node features looked up. -/
abbrev segB : List (HloOp τ sig (Elt F)) :=
  [ nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- The destination endpoints wrapped, and their rows of the node features looked up. -/
abbrev segC : List (HloOp τ sig (Elt F)) :=
  [ nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- The message layer: the two looked-up tables side by side through the message weight, plus bias, relu. -/
abbrev segD : List (HloOp τ sig (Elt F)) :=
  [ binary main_v10 main_v17 main_v18 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    binary main_v18 main_arg2 main_v19 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg3 main_v20 (broadcastInDim S1x64 ![1] bcast_S64_S1x64_1 : (⟨S64, .f32⟩ : BufTy).Contents (Elt F) → (⟨S1x64, .f32⟩ : BufTy).Contents (Elt F)),
    unary main_v20 main_v21 (broadcastInDim S800000x64 ![0, 1] bcast_S1x64_S800000x64_0_1 : (⟨S1x64, .f32⟩ : BufTy).Contents (Elt F) → (⟨S800000x64, .f32⟩ : BufTy).Contents (Elt F)),
    binary main_v19 main_v21 main_v22 (addf : (⟨S800000x64, .f32⟩ : BufTy).Contents (Elt F) → (⟨S800000x64, .f32⟩ : BufTy).Contents (Elt F) → (⟨S800000x64, .f32⟩ : BufTy).Contents (Elt F)),
    TRef.nullary main_call0.cst (constant S_ .f32 0x00000000#32),
    TRef.unary main_call0.cst main_call0.v0 (broadcastInDim S800000x64 ![] bcast_S_S800000x64),
    TRef.binary (.of main_v22 : TRef sig ⟨S800000x64, .f32⟩) main_call0.v0 main_call0.v1 maximumf ]

/-- The messages summed into their destination nodes, from zero. -/
abbrev segE : List (HloOp τ sig (Elt F)) :=
  [ nullary main_cst (constant S_ .f32 0x00000000#32),
    unary main_cst main_v24 (broadcastInDim S50000x64 ![] bcast_S_S50000x64 : (⟨S_, .f32⟩ : BufTy).Contents (Elt F) → (⟨S50000x64, .f32⟩ : BufTy).Contents (Elt F)),
    unary main_v3 main_v25 (broadcastInDim S800000x1 ![0] bcast_S800000_S800000x1_0 : (⟨S800000, .i32⟩ : BufTy).Contents (Elt F) → (⟨S800000x1, .i32⟩ : BufTy).Contents (Elt F)),
    ternary main_v24 main_v25 main_v23 main_v26 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The update layer: own row and aggregated row side by side through the update weight, plus bias, relu. -/
abbrev segF : List (HloOp τ sig (Elt F)) :=
  [ binary main_arg0 main_v26 main_v27 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    binary main_v27 main_arg4 main_v28 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg5 main_v29 (broadcastInDim S1x64 ![1] bcast_S64_S1x64_1 : (⟨S64, .f32⟩ : BufTy).Contents (Elt F) → (⟨S1x64, .f32⟩ : BufTy).Contents (Elt F)),
    unary main_v29 main_v30 (broadcastInDim S50000x64 ![0, 1] bcast_S1x64_S50000x64_0_1 : (⟨S1x64, .f32⟩ : BufTy).Contents (Elt F) → (⟨S50000x64, .f32⟩ : BufTy).Contents (Elt F)),
    binary main_v28 main_v30 main_v31 (addf : (⟨S50000x64, .f32⟩ : BufTy).Contents (Elt F) → (⟨S50000x64, .f32⟩ : BufTy).Contents (Elt F) → (⟨S50000x64, .f32⟩ : BufTy).Contents (Elt F)),
    TRef.nullary main_call1.cst (constant S_ .f32 0x00000000#32),
    TRef.unary main_call1.cst main_call1.v0 (broadcastInDim S50000x64 ![] bcast_S_S50000x64),
    TRef.binary (.of main_v31 : TRef sig ⟨S50000x64, .f32⟩) main_call1.v0 main_call1.v1 maximumf ]

/-- The row means. -/
abbrev segG : List (HloOp τ sig (Elt F)) :=
  [ nullary main_cst_3 (constant S_ .f32 0x00000000#32),
    binary main_v32 main_cst_3 main_v33 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v33 main_v34 (broadcastInDim S50000x1 ![0] bcast_S50000_S50000x1_0 : (⟨S50000, .f32⟩ : BufTy).Contents (Elt F) → (⟨S50000x1, .f32⟩ : BufTy).Contents (Elt F)),
    nullary main_cst_4 (constant S_ .f32 0x42800000#32),
    unary main_cst_4 main_v35 (broadcastInDim S50000x1 ![] bcast_S_S50000x1 : (⟨S_, .f32⟩ : BufTy).Contents (Elt F) → (⟨S50000x1, .f32⟩ : BufTy).Contents (Elt F)),
    binary main_v34 main_v35 main_v36 (Host.divf : (⟨S50000x1, .f32⟩ : BufTy).Contents (Elt F) → (⟨S50000x1, .f32⟩ : BufTy).Contents (Elt F) → (⟨S50000x1, .f32⟩ : BufTy).Contents (Elt F)) ]

/-- The row variances: the called function's operations and, within it, the guarded choice's. -/
abbrev segH : List (HloOp τ sig (Elt F)) :=
  [ nullary main_c_5 (constantI S_ 32 0#32),
    TRef.nullary main_call2.cst (constant S_ .f32 0x00000000#32),
    TRef.binary (.of main_v32 : TRef sig ⟨S50000x64, .f32⟩) main_call2.cst main_call2.v0 (fun x v => Host.reduceAdd x v reducesTo_S50000x64_S50000_d1 h_S_),
    TRef.unary main_call2.v0 main_call2.v1 (broadcastInDim S50000x1 ![0] bcast_S50000_S50000x1_0),
    TRef.nullary main_call2.cst_0 (constant S_ .f32 0x42800000#32),
    TRef.unary main_call2.cst_0 main_call2.v2 (broadcastInDim S50000x1 ![] bcast_S_S50000x1),
    TRef.binary main_call2.v1 main_call2.v2 main_call2.v3 Host.divf,
    TRef.unary main_call2.v3 main_call2.v4 (broadcastInDim S50000x64 ![0, 1] bcast_S50000x1_S50000x64_0_1),
    TRef.binary (.of main_v32 : TRef sig ⟨S50000x64, .f32⟩) main_call2.v4 main_call2.v5 subf,
    TRef.binary main_call2.v5 main_call2.v5 main_call2.v6 mulf,
    TRef.unary (.of main_c_5 : TRef sig ⟨S_, .i32⟩) main_call2.v7 (sitofp .f32),
    TRef.nullary main_call2.cst_1 (constant S_ .f32 0x42800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x64_S50000_d1 h_S_),
    TRef.unary main_call2.v9 main_call2.v10 (broadcastInDim S50000x1 ![0] bcast_S50000_S50000x1_0),
    TRef.unary main_call2.v8 main_call2.v11 (broadcastInDim S50000x1 ![] bcast_S_S50000x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S50000x1 ![] bcast_S_S50000x1),
    TRef.ternary main_call2.v13 main_call2.v12 main_call2.call0.v1 main_call2.call0.v2 (fun p a b => select (broadcastInDim S50000x1 ![] bcast_S_S50000x1 p) a b) ]

/-- The normalisation, scaled and shifted. -/
abbrev segI : List (HloOp τ sig (Elt F)) :=
  [ unary main_v36 main_v38 (broadcastInDim S50000x64 ![0, 1] bcast_S50000x1_S50000x64_0_1 : (⟨S50000x1, .f32⟩ : BufTy).Contents (Elt F) → (⟨S50000x64, .f32⟩ : BufTy).Contents (Elt F)),
    binary main_v32 main_v38 main_v39 (subf : (⟨S50000x64, .f32⟩ : BufTy).Contents (Elt F) → (⟨S50000x64, .f32⟩ : BufTy).Contents (Elt F) → (⟨S50000x64, .f32⟩ : BufTy).Contents (Elt F)),
    nullary main_cst_6 (constant S_ .f32 0x3727C5AC#32),
    unary main_cst_6 main_v40 (broadcastInDim S50000x1 ![] bcast_S_S50000x1 : (⟨S_, .f32⟩ : BufTy).Contents (Elt F) → (⟨S50000x1, .f32⟩ : BufTy).Contents (Elt F)),
    binary main_v37 main_v40 main_v41 (addf : (⟨S50000x1, .f32⟩ : BufTy).Contents (Elt F) → (⟨S50000x1, .f32⟩ : BufTy).Contents (Elt F) → (⟨S50000x1, .f32⟩ : BufTy).Contents (Elt F)),
    unary main_v41 main_v42 (Host.rsqrt : (⟨S50000x1, .f32⟩ : BufTy).Contents (Elt F) → (⟨S50000x1, .f32⟩ : BufTy).Contents (Elt F)),
    unary main_v42 main_v43 (broadcastInDim S50000x64 ![0, 1] bcast_S50000x1_S50000x64_0_1 : (⟨S50000x1, .f32⟩ : BufTy).Contents (Elt F) → (⟨S50000x64, .f32⟩ : BufTy).Contents (Elt F)),
    binary main_v39 main_v43 main_v44 (mulf : (⟨S50000x64, .f32⟩ : BufTy).Contents (Elt F) → (⟨S50000x64, .f32⟩ : BufTy).Contents (Elt F) → (⟨S50000x64, .f32⟩ : BufTy).Contents (Elt F)),
    unary main_arg6 main_v45 (broadcastInDim S1x64 ![1] bcast_S64_S1x64_1 : (⟨S64, .f32⟩ : BufTy).Contents (Elt F) → (⟨S1x64, .f32⟩ : BufTy).Contents (Elt F)),
    unary main_v45 main_v46 (broadcastInDim S50000x64 ![0, 1] bcast_S1x64_S50000x64_0_1 : (⟨S1x64, .f32⟩ : BufTy).Contents (Elt F) → (⟨S50000x64, .f32⟩ : BufTy).Contents (Elt F)),
    binary main_v44 main_v46 main_v47 (mulf : (⟨S50000x64, .f32⟩ : BufTy).Contents (Elt F) → (⟨S50000x64, .f32⟩ : BufTy).Contents (Elt F) → (⟨S50000x64, .f32⟩ : BufTy).Contents (Elt F)),
    unary main_arg7 main_v48 (broadcastInDim S1x64 ![1] bcast_S64_S1x64_1 : (⟨S64, .f32⟩ : BufTy).Contents (Elt F) → (⟨S1x64, .f32⟩ : BufTy).Contents (Elt F)),
    unary main_v48 main_v49 (broadcastInDim S50000x64 ![0, 1] bcast_S1x64_S50000x64_0_1 : (⟨S1x64, .f32⟩ : BufTy).Contents (Elt F) → (⟨S50000x64, .f32⟩ : BufTy).Contents (Elt F)),
    binary main_v47 main_v49 main_v50 (addf : (⟨S50000x64, .f32⟩ : BufTy).Contents (Elt F) → (⟨S50000x64, .f32⟩ : BufTy).Contents (Elt F) → (⟨S50000x64, .f32⟩ : BufTy).Contents (Elt F)) ]

/-- The message layer over the two looked-up row tables. -/
def msgOf (r1 r2 : FVec F S800000x64 .f32) (Wm : FVec F S128x64 .f32) (bm : FVec F S64 .f32) : FVec F S800000x64 .f32 :=
  maximumf
    (addf (Host.dotGeneral dot_S800000x128_S128x64_S800000x64_1_0_0_1_n_n none
        (concatenate S800000x128 1 [⟨S800000x64, r1⟩, ⟨S800000x64, r2⟩] concatenates_S800000x64_S800000x64_S800000x128_d1) Wm)
      (broadcastInDim S800000x64 ![0, 1] bcast_S1x64_S800000x64_0_1 (broadcastInDim S1x64 ![1] bcast_S64_S1x64_1 bm)))
    (broadcastInDim S800000x64 ![] bcast_S_S800000x64 (constant S_ .f32 0x00000000#32))

/-- The normalisation of the activations given their row means and row variances, scaled and shifted. -/
def normOf (u : FVec F S50000x64 .f32) (mu va : FVec F S50000x1 .f32) (ga be : FVec F S64 .f32) : FVec F S50000x64 .f32 :=
  addf
    (mulf
      (mulf (subf u (broadcastInDim S50000x64 ![0, 1] bcast_S50000x1_S50000x64_0_1 mu))
        (broadcastInDim S50000x64 ![0, 1] bcast_S50000x1_S50000x64_0_1
          (Host.rsqrt (addf va (broadcastInDim S50000x1 ![] bcast_S_S50000x1 (constant S_ .f32 0x3727C5AC#32))))))
      (broadcastInDim S50000x64 ![0, 1] bcast_S1x64_S50000x64_0_1 (broadcastInDim S1x64 ![1] bcast_S64_S1x64_1 ga)))
    (broadcastInDim S50000x64 ![0, 1] bcast_S1x64_S50000x64_0_1 (broadcastInDim S1x64 ![1] bcast_S64_S1x64_1 be))

/-! What each stretch of the line leaves at the buffers later stretches read: its own results as functions of what
    it found, and the buffers it does not write as it found them. -/

set_option maxRecDepth 8192 in
theorem segA_main_v1 (W : Valuation τ sig (Elt F)) :
    after segA W (main_v1 : DevRef τ sig) = srcIdx (W (main_arg1 : DevRef τ sig)) := by
  after_results <;> rfl

set_option maxRecDepth 8192 in
theorem segA_main_v3 (W : Valuation τ sig (Elt F)) :
    after segA W (main_v3 : DevRef τ sig) = dstIdx (W (main_arg1 : DevRef τ sig)) := by
  after_results <;> rfl
theorem segA_main_arg0 (W : Valuation τ sig (Elt F)) : after segA W (main_arg0 : DevRef τ sig) = W (main_arg0 : DevRef τ sig) := by after_results_simp
theorem segA_main_arg2 (W : Valuation τ sig (Elt F)) : after segA W (main_arg2 : DevRef τ sig) = W (main_arg2 : DevRef τ sig) := by after_results_simp
theorem segA_main_arg3 (W : Valuation τ sig (Elt F)) : after segA W (main_arg3 : DevRef τ sig) = W (main_arg3 : DevRef τ sig) := by after_results_simp
theorem segA_main_arg4 (W : Valuation τ sig (Elt F)) : after segA W (main_arg4 : DevRef τ sig) = W (main_arg4 : DevRef τ sig) := by after_results_simp
theorem segA_main_arg5 (W : Valuation τ sig (Elt F)) : after segA W (main_arg5 : DevRef τ sig) = W (main_arg5 : DevRef τ sig) := by after_results_simp
theorem segA_main_arg6 (W : Valuation τ sig (Elt F)) : after segA W (main_arg6 : DevRef τ sig) = W (main_arg6 : DevRef τ sig) := by after_results_simp
theorem segA_main_arg7 (W : Valuation τ sig (Elt F)) : after segA W (main_arg7 : DevRef τ sig) = W (main_arg7 : DevRef τ sig) := by after_results_simp

set_option maxRecDepth 8192 in
theorem segB_main_v10 (W : Valuation τ sig (Elt F)) :
    after segB W (main_v10 : DevRef τ sig) = rows (W (main_arg0 : DevRef τ sig)) (W (main_v1 : DevRef τ sig)) := by
  after_results <;> rfl
theorem segB_main_v3 (W : Valuation τ sig (Elt F)) : after segB W (main_v3 : DevRef τ sig) = W (main_v3 : DevRef τ sig) := by after_results_simp
theorem segB_main_arg0 (W : Valuation τ sig (Elt F)) : after segB W (main_arg0 : DevRef τ sig) = W (main_arg0 : DevRef τ sig) := by after_results_simp
theorem segB_main_arg2 (W : Valuation τ sig (Elt F)) : after segB W (main_arg2 : DevRef τ sig) = W (main_arg2 : DevRef τ sig) := by after_results_simp
theorem segB_main_arg3 (W : Valuation τ sig (Elt F)) : after segB W (main_arg3 : DevRef τ sig) = W (main_arg3 : DevRef τ sig) := by after_results_simp
theorem segB_main_arg4 (W : Valuation τ sig (Elt F)) : after segB W (main_arg4 : DevRef τ sig) = W (main_arg4 : DevRef τ sig) := by after_results_simp
theorem segB_main_arg5 (W : Valuation τ sig (Elt F)) : after segB W (main_arg5 : DevRef τ sig) = W (main_arg5 : DevRef τ sig) := by after_results_simp
theorem segB_main_arg6 (W : Valuation τ sig (Elt F)) : after segB W (main_arg6 : DevRef τ sig) = W (main_arg6 : DevRef τ sig) := by after_results_simp
theorem segB_main_arg7 (W : Valuation τ sig (Elt F)) : after segB W (main_arg7 : DevRef τ sig) = W (main_arg7 : DevRef τ sig) := by after_results_simp

set_option maxRecDepth 8192 in
theorem segC_main_v17 (W : Valuation τ sig (Elt F)) :
    after segC W (main_v17 : DevRef τ sig) = rows (W (main_arg0 : DevRef τ sig)) (W (main_v3 : DevRef τ sig)) := by
  after_results <;> rfl
theorem segC_main_v10 (W : Valuation τ sig (Elt F)) : after segC W (main_v10 : DevRef τ sig) = W (main_v10 : DevRef τ sig) := by after_results_simp
theorem segC_main_v3 (W : Valuation τ sig (Elt F)) : after segC W (main_v3 : DevRef τ sig) = W (main_v3 : DevRef τ sig) := by after_results_simp
theorem segC_main_arg0 (W : Valuation τ sig (Elt F)) : after segC W (main_arg0 : DevRef τ sig) = W (main_arg0 : DevRef τ sig) := by after_results_simp
theorem segC_main_arg2 (W : Valuation τ sig (Elt F)) : after segC W (main_arg2 : DevRef τ sig) = W (main_arg2 : DevRef τ sig) := by after_results_simp
theorem segC_main_arg3 (W : Valuation τ sig (Elt F)) : after segC W (main_arg3 : DevRef τ sig) = W (main_arg3 : DevRef τ sig) := by after_results_simp
theorem segC_main_arg4 (W : Valuation τ sig (Elt F)) : after segC W (main_arg4 : DevRef τ sig) = W (main_arg4 : DevRef τ sig) := by after_results_simp
theorem segC_main_arg5 (W : Valuation τ sig (Elt F)) : after segC W (main_arg5 : DevRef τ sig) = W (main_arg5 : DevRef τ sig) := by after_results_simp
theorem segC_main_arg6 (W : Valuation τ sig (Elt F)) : after segC W (main_arg6 : DevRef τ sig) = W (main_arg6 : DevRef τ sig) := by after_results_simp
theorem segC_main_arg7 (W : Valuation τ sig (Elt F)) : after segC W (main_arg7 : DevRef τ sig) = W (main_arg7 : DevRef τ sig) := by after_results_simp

set_option maxRecDepth 8192 in
theorem segD_main_v23 (W : Valuation τ sig (Elt F)) :
    after segD W (main_v23 : DevRef τ sig) = msgOf (W (main_v10 : DevRef τ sig)) (W (main_v17 : DevRef τ sig)) (W (main_arg2 : DevRef τ sig)) (W (main_arg3 : DevRef τ sig)) := by
  after_results <;> rfl
theorem segD_main_v3 (W : Valuation τ sig (Elt F)) : after segD W (main_v3 : DevRef τ sig) = W (main_v3 : DevRef τ sig) := by after_results_simp
theorem segD_main_arg0 (W : Valuation τ sig (Elt F)) : after segD W (main_arg0 : DevRef τ sig) = W (main_arg0 : DevRef τ sig) := by after_results_simp
theorem segD_main_arg4 (W : Valuation τ sig (Elt F)) : after segD W (main_arg4 : DevRef τ sig) = W (main_arg4 : DevRef τ sig) := by after_results_simp
theorem segD_main_arg5 (W : Valuation τ sig (Elt F)) : after segD W (main_arg5 : DevRef τ sig) = W (main_arg5 : DevRef τ sig) := by after_results_simp
theorem segD_main_arg6 (W : Valuation τ sig (Elt F)) : after segD W (main_arg6 : DevRef τ sig) = W (main_arg6 : DevRef τ sig) := by after_results_simp
theorem segD_main_arg7 (W : Valuation τ sig (Elt F)) : after segD W (main_arg7 : DevRef τ sig) = W (main_arg7 : DevRef τ sig) := by after_results_simp

set_option maxRecDepth 8192 in
theorem segE_main_v26 (W : Valuation τ sig (Elt F)) :
    after segE W (main_v26 : DevRef τ sig) = aggR (colOf (W (main_v3 : DevRef τ sig))) (W (main_v23 : DevRef τ sig)) := by
  after_results <;> rfl
theorem segE_main_arg0 (W : Valuation τ sig (Elt F)) : after segE W (main_arg0 : DevRef τ sig) = W (main_arg0 : DevRef τ sig) := by after_results_simp
theorem segE_main_arg4 (W : Valuation τ sig (Elt F)) : after segE W (main_arg4 : DevRef τ sig) = W (main_arg4 : DevRef τ sig) := by after_results_simp
theorem segE_main_arg5 (W : Valuation τ sig (Elt F)) : after segE W (main_arg5 : DevRef τ sig) = W (main_arg5 : DevRef τ sig) := by after_results_simp
theorem segE_main_arg6 (W : Valuation τ sig (Elt F)) : after segE W (main_arg6 : DevRef τ sig) = W (main_arg6 : DevRef τ sig) := by after_results_simp
theorem segE_main_arg7 (W : Valuation τ sig (Elt F)) : after segE W (main_arg7 : DevRef τ sig) = W (main_arg7 : DevRef τ sig) := by after_results_simp

set_option maxRecDepth 8192 in
theorem segF_main_v32 (W : Valuation τ sig (Elt F)) :
    after segF W (main_v32 : DevRef τ sig) = actR (W (main_arg0 : DevRef τ sig)) (W (main_v26 : DevRef τ sig)) (W (main_arg4 : DevRef τ sig)) (W (main_arg5 : DevRef τ sig)) := by
  after_results <;> rfl
theorem segF_main_arg6 (W : Valuation τ sig (Elt F)) : after segF W (main_arg6 : DevRef τ sig) = W (main_arg6 : DevRef τ sig) := by after_results_simp
theorem segF_main_arg7 (W : Valuation τ sig (Elt F)) : after segF W (main_arg7 : DevRef τ sig) = W (main_arg7 : DevRef τ sig) := by after_results_simp

set_option maxRecDepth 8192 in
theorem segG_main_v36 (W : Valuation τ sig (Elt F)) :
    after segG W (main_v36 : DevRef τ sig) = meanR (W (main_v32 : DevRef τ sig)) := by
  after_results <;> rfl
theorem segG_main_v32 (W : Valuation τ sig (Elt F)) : after segG W (main_v32 : DevRef τ sig) = W (main_v32 : DevRef τ sig) := by after_results_simp
theorem segG_main_arg6 (W : Valuation τ sig (Elt F)) : after segG W (main_arg6 : DevRef τ sig) = W (main_arg6 : DevRef τ sig) := by after_results_simp
theorem segG_main_arg7 (W : Valuation τ sig (Elt F)) : after segG W (main_arg7 : DevRef τ sig) = W (main_arg7 : DevRef τ sig) := by after_results_simp

set_option maxRecDepth 8192 in
set_option maxHeartbeats 4000000 in
theorem segH_main_v37 (W : Valuation τ sig (Elt F)) :
    after segH W (main_v37 : DevRef τ sig) = varR (W (main_v32 : DevRef τ sig)) := by
  after_results <;> rfl
theorem segH_main_v32 (W : Valuation τ sig (Elt F)) : after segH W (main_v32 : DevRef τ sig) = W (main_v32 : DevRef τ sig) := by after_results_simp
theorem segH_main_v36 (W : Valuation τ sig (Elt F)) : after segH W (main_v36 : DevRef τ sig) = W (main_v36 : DevRef τ sig) := by after_results_simp
theorem segH_main_arg6 (W : Valuation τ sig (Elt F)) : after segH W (main_arg6 : DevRef τ sig) = W (main_arg6 : DevRef τ sig) := by after_results_simp
theorem segH_main_arg7 (W : Valuation τ sig (Elt F)) : after segH W (main_arg7 : DevRef τ sig) = W (main_arg7 : DevRef τ sig) := by after_results_simp

set_option maxRecDepth 8192 in
set_option maxHeartbeats 4000000 in
theorem segI_main_v50 (W : Valuation τ sig (Elt F)) :
    after segI W (main_v50 : DevRef τ sig) = normOf (W (main_v32 : DevRef τ sig)) (W (main_v36 : DevRef τ sig)) (W (main_v37 : DevRef τ sig)) (W (main_arg6 : DevRef τ sig)) (W (main_arg7 : DevRef τ sig)) := by
  after_results <;> rfl

set_option maxRecDepth 8192 in
/-- The whole line at the result buffer: the stretches one after another. -/
theorem out_eq (V : Valuation τ sig (Elt F)) :
    after ops V (main_v50 : DevRef τ sig)
      = resOut (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  show after segI (after segH (after segG (after segF (after segE (after segD (after segC (after segB (after segA V)))))))) (main_v50 : DevRef τ sig) = _
  rw [segI_main_v50]
  rw [segH_main_v37, segH_main_v32, segH_main_v36, segH_main_arg6, segH_main_arg7]
  rw [segG_main_v36, segG_main_v32, segG_main_arg6, segG_main_arg7]
  rw [segF_main_v32, segF_main_arg6, segF_main_arg7]
  rw [segE_main_v26, segE_main_arg0, segE_main_arg4, segE_main_arg5, segE_main_arg6, segE_main_arg7]
  rw [segD_main_v23, segD_main_v3, segD_main_arg0, segD_main_arg4, segD_main_arg5, segD_main_arg6, segD_main_arg7]
  rw [segC_main_v17, segC_main_v10, segC_main_v3, segC_main_arg0, segC_main_arg2, segC_main_arg3, segC_main_arg4, segC_main_arg5, segC_main_arg6, segC_main_arg7]
  rw [segB_main_v10, segB_main_v3, segB_main_arg0, segB_main_arg2, segB_main_arg3, segB_main_arg4, segB_main_arg5, segB_main_arg6, segB_main_arg7]
  rw [segA_main_v1, segA_main_v3, segA_main_arg0, segA_main_arg2, segA_main_arg3, segA_main_arg4, segA_main_arg5, segA_main_arg6, segA_main_arg7]
  rfl

/-! The arguments' buffers are written by no operation. -/
set_option maxRecDepth 8192 in
theorem arg0_eq (V : Valuation τ sig (Elt F)) : after ops V (main_arg0 : DevRef τ sig) = V (main_arg0 : DevRef τ sig) := by after_results_simp
set_option maxRecDepth 8192 in
theorem arg1_eq (V : Valuation τ sig (Elt F)) : after ops V (main_arg1 : DevRef τ sig) = V (main_arg1 : DevRef τ sig) := by after_results_simp
set_option maxRecDepth 8192 in
theorem arg2_eq (V : Valuation τ sig (Elt F)) : after ops V (main_arg2 : DevRef τ sig) = V (main_arg2 : DevRef τ sig) := by after_results_simp
set_option maxRecDepth 8192 in
theorem arg3_eq (V : Valuation τ sig (Elt F)) : after ops V (main_arg3 : DevRef τ sig) = V (main_arg3 : DevRef τ sig) := by after_results_simp
set_option maxRecDepth 8192 in
theorem arg4_eq (V : Valuation τ sig (Elt F)) : after ops V (main_arg4 : DevRef τ sig) = V (main_arg4 : DevRef τ sig) := by after_results_simp
set_option maxRecDepth 8192 in
theorem arg5_eq (V : Valuation τ sig (Elt F)) : after ops V (main_arg5 : DevRef τ sig) = V (main_arg5 : DevRef τ sig) := by after_results_simp
set_option maxRecDepth 8192 in
theorem arg6_eq (V : Valuation τ sig (Elt F)) : after ops V (main_arg6 : DevRef τ sig) = V (main_arg6 : DevRef τ sig) := by after_results_simp
set_option maxRecDepth 8192 in
theorem arg7_eq (V : Valuation τ sig (Elt F)) : after ops V (main_arg7 : DevRef τ sig) = V (main_arg7 : DevRef τ sig) := by after_results_simp

/-- Every weakly fair execution of the reference ends with the result buffer at the composed function of the
    eight arguments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
        = resOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  exact (θ_run defs _ _).mono
    (fun _ h c => ⟨(h c main_v50).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.RRun

end
-- ==== Proof.RMsg.lean ====
/-
  The reference's edge messages read index by index at the ideal instance: the 128-long contraction of
  "source row, then destination row" with the message weight splits into the half that meets the source row and
  the half that meets the destination row, so a message is the specification's message.
-/
import proofs.«417284_j90692529422948_2_alg».proof.Proof.RTerms
import proofs.«417284_j90692529422948_2_alg».proof.Proof.Spec
import proofs.«417284_j90692529422948_2_alg».proof.Proof.SpecLemmas
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.ReferenceIdeal.RMsg

open Idealize.ShloMosaic Idealize.ShloMosaic.ValueIdx Cert.ReferenceIdeal Cert.ReferenceIdeal.Terms
open Cert.ReferenceIdeal.Facts₀

/-- The bias, laid as one row and then along every edge, reads at (e, j) its entry j. -/
theorem bias_apply (bm : FVec Ideal S64 .f32) (e : Fin 800000) (j : Fin 64) :
    broadcastInDim S800000x64 ![0, 1] bcast_S1x64_S800000x64_0_1 (broadcastInDim S1x64 ![1] bcast_S64_S1x64_1 bm) (ix2 e j)
      = bm (ix1 j) := by
  rw [broadcastInDim_apply ![0, 1] bcast_S1x64_S800000x64_0_1 _ (ix2 e j) (ix2 (0 : Fin 1) j)
      (fun a => by match a with | ⟨0, _⟩ => rfl | ⟨1, _⟩ => rfl),
    broadcastInDim_apply ![1] bcast_S64_S1x64_1 bm (ix2 (0 : Fin 1) j) (ix1 j)
      (fun a => by match a with | ⟨0, _⟩ => rfl)]

/-- The zero word laid everywhere reads the extended real 0. -/
theorem zero_apply (i : S800000x64.Idx) :
    broadcastInDim S800000x64 ![] bcast_S_S800000x64 (constant (F := Ideal) S_ .f32 0x00000000#32) i = 0 := by
  show Ideal.ofBits .f32 0x00000000#32 = 0
  exact Ideal.ofBits_zero_f32

/-- The [800000 x 128] by [128 x 64] product at (e, j) is the sum over the 128 contracted positions. -/
theorem dot_apply (X : FVec Ideal S800000x128 .f32) (Wm : FVec Ideal S128x64 .f32) (e : Fin 800000) (j : Fin 64) :
    Host.dotGeneral dot_S800000x128_S128x64_S800000x64_1_0_0_1_n_n none X Wm (ix2 e j)
      = ∑ c : Fin 128, X (ix2 e c) * Wm (ix2 c j) :=
  StackMember.dotGeneral_plain_apply (m := 800000) (n := 64) (k := 128) none X Wm e j

/-- "First piece, then second piece" along the columns, read in its first 64 columns, is the first piece. -/
theorem cat_lo (A B : FVec Ideal S800000x64 .f32) (e : Fin 800000) (k : Fin 64) :
    concatenate S800000x128 1 [⟨S800000x64, A⟩, ⟨S800000x64, B⟩] concatenates_S800000x64_S800000x64_S800000x128_d1
      (ix2 e (Cert.Spec.lo k)) = A (ix2 e k) :=
  concatenate_pair_apply_left (t := S800000x128) (s₁ := S800000x64) (s₂ := S800000x64) (1 : Fin 2) A B
    concatenates_S800000x64_S800000x64_S800000x128_d1 (ix2 e (Cert.Spec.lo k)) rfl (ix2 e k)
    (fun b => by match b with | ⟨0, _⟩ => rfl | ⟨1, _⟩ => rfl)

/-- Read in its last 64 columns, it is the second piece, 64 columns earlier. -/
theorem cat_hi (A B : FVec Ideal S800000x64 .f32) (e : Fin 800000) (k : Fin 64) :
    concatenate S800000x128 1 [⟨S800000x64, A⟩, ⟨S800000x64, B⟩] concatenates_S800000x64_S800000x64_S800000x128_d1
      (ix2 e (Cert.Spec.hi k)) = B (ix2 e k) :=
  concatenate_pair_apply_right (t := S800000x128) (s₁ := S800000x64) (s₂ := S800000x64) (1 : Fin 2) A B
    concatenates_S800000x64_S800000x64_S800000x128_d1 (ix2 e (Cert.Spec.hi k)) rfl rfl (ix2 e k)
    (fun b hb => by match b with | ⟨0, _⟩ => rfl | ⟨1, _⟩ => exact absurd rfl hb)
    (by show k.val + 64 = 64 + k.val; omega)

/-- The row lookup at (e, k): the looked-up node's row, column k. -/
theorem rows_apply (nf : FVec Ideal S50000x64 .f32) (v : IVec S800000 32) (e : Fin 800000) (k : Fin 64) :
    rows (F := Ideal) nf v (ix2 e k) = nf (ix2 (Cert.Spec.nodeOf (colOf (wrapIdx v)) e) k) :=
  Cert.Spec.gather_row gather_S50000x64_S800000x1_S800000x64_1_0_n_n_0_1_164 rfl rfl rfl rfl rfl rfl nf
    (colOf (wrapIdx v)) e k

theorem msgR_eq (nf : FVec Ideal S50000x64 .f32) (ei : IVec S2x800000 32) (Wm : FVec Ideal S128x64 .f32) (bm : FVec Ideal S64 .f32) :
    msgR (F := Ideal) nf ei Wm bm
      = Cert.Spec.msg nf Wm bm (Cert.Spec.nodeOf (colOf (wrapIdx (srcIdx ei)))) (Cert.Spec.nodeOf (colOf (wrapIdx (dstIdx ei)))) := by
  funext i
  obtain ⟨e, j, rfl⟩ : ∃ (e : Fin 800000) (j : Fin 64), i = ix2 e j := ⟨i 0, i 1, eq_ix2 i⟩
  unfold msgR
  rw [maximumf_apply, addf_apply, zero_apply, bias_apply, dot_apply, Cert.Spec.sum_split]
  simp only [cat_lo, cat_hi, rows_apply]
  rfl

end Cert.ReferenceIdeal.RMsg

end
-- ==== Proof.RNorm.lean ====
/-
  The reference's node update read index by index at the ideal instance: the 128-long contraction of "own row,
  then aggregated row" with the update weight splits into its two halves; the mean is a row sum over 64; the
  variance's divisor 64 - 0 is 64 and positive, so its guard is taken; and the normalisation is the
  specification's.
-/
import proofs.«417284_j90692529422948_2_alg».proof.Proof.RTerms
import proofs.«417284_j90692529422948_2_alg».proof.Proof.Spec
import proofs.«417284_j90692529422948_2_alg».proof.Proof.SpecLemmas
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RNorm

open Idealize.ShloMosaic Idealize.ShloMosaic.ValueIdx Cert.ReferenceIdeal Cert.ReferenceIdeal.Terms

/-! ## The layout operations of the update, read at an index -/

section Layout
variable {α : Type}

/-- A scalar broadcast to any shape reads the scalar. -/
theorem bcast_scalar {T : Shape} (h : S_.BroadcastsInDim T ![]) (x : S_.Idx → α) (j : T.Idx) :
    broadcastInDim T ![] h x j = x ix0 := by
  unfold broadcastInDim; exact congrArg x (funext fun a => a.elim0)

/-- A vector of 64 as one row, that row copied to every node: at (r, j) it reads entry j. -/
theorem bcast_row (h1 : S64.BroadcastsInDim S1x64 ![1]) (h2 : S1x64.BroadcastsInDim S50000x64 ![0, 1])
    (b : S64.Idx → α) (r : Fin 50000) (j : Fin 64) :
    broadcastInDim S50000x64 ![0, 1] h2 (broadcastInDim S1x64 ![1] h1 b) (ix2 r j) = b (ix1 j) := by
  refine (broadcastInDim_apply _ h2 _ (ix2 r j) (ix2 (0 : Fin 1) j) (fun a => ?_)).trans ?_
  · match a with
    | ⟨0, _⟩ => rfl
    | ⟨1, _⟩ => rfl
  · exact broadcastInDim_apply _ h1 b (ix2 (0 : Fin 1) j) (ix1 j) (fun a => match a with | ⟨0, _⟩ => rfl)

/-- A one-column matrix copied along the 64 features: at (r, q) it reads (r, 0). -/
theorem bcast_col (h : S50000x1.BroadcastsInDim S50000x64 ![0, 1]) (v : S50000x1.Idx → α) (r : Fin 50000) (q : Fin 64) :
    broadcastInDim S50000x64 ![0, 1] h v (ix2 r q) = v (ix2 r (0 : Fin 1)) := by
  refine broadcastInDim_apply _ h v (ix2 r q) (ix2 r (0 : Fin 1)) (fun a => ?_)
  match a with
  | ⟨0, _⟩ => rfl
  | ⟨1, _⟩ => rfl

/-- A vector over the nodes as a one-column matrix: at (r, 0) it reads entry r. -/
theorem bcast_keep (h : S50000.BroadcastsInDim S50000x1 ![0]) (v : S50000.Idx → α) (r : Fin 50000) :
    broadcastInDim S50000x1 ![0] h v (ix2 r (0 : Fin 1)) = v (ix1 r) := by
  refine broadcastInDim_apply _ h v (ix2 r (0 : Fin 1)) (ix1 r) (fun a => ?_)
  match a with
  | ⟨0, _⟩ => rfl

/-- "Own row, then aggregated row" at a position of the first half reads the own row. -/
theorem cat_lo (h : Shape.Concatenates [S50000x64, S50000x64] S50000x128 1) (x y : S50000x64.Idx → α)
    (r : Fin 50000) (k : Fin 64) :
    concatenate S50000x128 1 [⟨S50000x64, x⟩, ⟨S50000x64, y⟩] h (ix2 r (Cert.Spec.lo k)) = x (ix2 r k) := by
  refine concatenate_pair_apply_left 1 x y h (ix2 r (Cert.Spec.lo k)) rfl (ix2 r k) (fun b => ?_)
  match b with
  | ⟨0, _⟩ => rfl
  | ⟨1, _⟩ => rfl

/-- "Own row, then aggregated row" at a position of the second half reads the aggregated row. -/
theorem cat_hi (h : Shape.Concatenates [S50000x64, S50000x64] S50000x128 1) (x y : S50000x64.Idx → α)
    (r : Fin 50000) (k : Fin 64) :
    concatenate S50000x128 1 [⟨S50000x64, x⟩, ⟨S50000x64, y⟩] h (ix2 r (Cert.Spec.hi k)) = y (ix2 r k) := by
  refine concatenate_pair_apply_right 1 x y h (ix2 r (Cert.Spec.hi k)) rfl rfl (ix2 r k) (fun b hb => ?_) ?_
  · match b with
    | ⟨0, _⟩ => rfl
    | ⟨1, _⟩ => exact absurd rfl hb
  · show k.val + 64 = 64 + k.val
    omega

end Layout

/-! ## The contraction and the row sum, read at an index -/

theorem lhs_dotU_0 (i : S50000x64.Idx) (q : (dot_S50000x128_S128x64_S50000x64_1_0_0_1_n_n).contr.Idx) :
    ((dot_S50000x128_S128x64_S50000x64_1_0_0_1_n_n).lhsIdx i q 0).val = (i 0).val := by
  unfold DotDims.lhsIdx
  rw [dif_neg (show ¬(0 : Fin S50000x128.rank) ∈ (dot_S50000x128_S128x64_S50000x64_1_0_0_1_n_n).lhsBatch by decide),
    dif_pos (show (0 : Fin S50000x128.rank) ∈ (dot_S50000x128_S128x64_S50000x64_1_0_0_1_n_n).lhsNonContracting by decide)]
  rfl

theorem lhs_dotU_1 (i : S50000x64.Idx) (q : (dot_S50000x128_S128x64_S50000x64_1_0_0_1_n_n).contr.Idx) :
    ((dot_S50000x128_S128x64_S50000x64_1_0_0_1_n_n).lhsIdx i q 1).val = (q ⟨0, by decide⟩).val :=
  (dot_S50000x128_S128x64_S50000x64_1_0_0_1_n_n).lhsIdx_val_of_single rfl i q

theorem rhs_dotU_0 (i : S50000x64.Idx) (q : (dot_S50000x128_S128x64_S50000x64_1_0_0_1_n_n).contr.Idx) :
    ((dot_S50000x128_S128x64_S50000x64_1_0_0_1_n_n).rhsIdx i q 0).val = (q ⟨0, by decide⟩).val :=
  (dot_S50000x128_S128x64_S50000x64_1_0_0_1_n_n).rhsIdx_val_of_single rfl i q

theorem rhs_dotU_1 (i : S50000x64.Idx) (q : (dot_S50000x128_S128x64_S50000x64_1_0_0_1_n_n).contr.Idx) :
    ((dot_S50000x128_S128x64_S50000x64_1_0_0_1_n_n).rhsIdx i q 1).val = (i 1).val := by
  unfold DotDims.rhsIdx
  rw [dif_neg (show ¬(1 : Fin S128x64.rank) ∈ (dot_S50000x128_S128x64_S50000x64_1_0_0_1_n_n).rhsBatch by decide),
    dif_pos (show (1 : Fin S128x64.rank) ∈ (dot_S50000x128_S128x64_S50000x64_1_0_0_1_n_n).rhsNonContracting by decide)]
  rfl

/-- The update's contraction at (r, j): the sum over the 128 positions of the left row times the weight's column. -/
theorem dotU_apply (l : FVec Ideal S50000x128 .f32) (W : FVec Ideal S128x64 .f32) (r : Fin 50000) (j : Fin 64) :
    Host.dotGeneral (F := Ideal) dot_S50000x128_S128x64_S50000x64_1_0_0_1_n_n none l W (ix2 r j)
      = ∑ k : Fin 128, l (ix2 r k) * W (ix2 k j) := by
  show FloatOps.dotGeneral _ none _ l W (ix2 r j) = _
  rw [Ideal.dotGeneral_apply,
    ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : (dot_S50000x128_S128x64_S50000x64_1_0_0_1_n_n).lhsIdx (ix2 r j)
      ((contrEquiv1 dot_S50000x128_S128x64_S50000x64_1_0_0_1_n_n 128 rfl rfl).symm k) = ix2 r k :=
    funext fun a => Fin.ext (by
      match a with
      | ⟨0, _⟩ => exact lhs_dotU_0 _ _
      | ⟨1, _⟩ => exact (lhs_dotU_1 _ _).trans hk)
  have er : (dot_S50000x128_S128x64_S50000x64_1_0_0_1_n_n).rhsIdx (ix2 r j)
      ((contrEquiv1 dot_S50000x128_S128x64_S50000x64_1_0_0_1_n_n 128 rfl rfl).symm k) = ix2 k j :=
    funext fun a => Fin.ext (by
      match a with
      | ⟨0, _⟩ => exact (rhs_dotU_0 _ _).trans hk
      | ⟨1, _⟩ => exact rhs_dotU_1 _ _)
  rw [el, er]

/-- The sum of a row from zero: at node r, the sum of the row's 64 entries. -/
theorem reduce_row (h' : S50000x64.ReducesTo [1] S50000) (hu : 0 < S_.numel) (u : FVec Ideal S50000x64 .f32) (r : Fin 50000) :
    Host.reduceAdd (F := Ideal) u (constant S_ .f32 0x00000000#32) h' hu (ix1 r) = ∑ j : Fin 64, u (ix2 r j) := by
  have h : S50000x64.Reduces [1] S50000 := by decide
  show Ideal.hostReduceAdd h' u (Ideal.ofBits .f32 0x00000000#32) (ix1 r) = _
  rw [Ideal.hostReduceAdd_single h' h, Ideal.ofBits_zero_f32, zero_add]
  refine Finset.sum_congr rfl fun k _ => congrArg u ?_
  funext a
  match a with
  | ⟨0, _⟩ => rfl
  | ⟨1, _⟩ => rfl

/-! ## The float words: 64 is positive -/

/-- The word both programs carry for 64 is the real 64. -/
theorem c64_eq : Cert.Spec.c64 = ((64 : ℝ) : EReal) := by
  show Ideal.ofBits .f32 0x42800000#32 = _
  simp [Ideal.ofBits, Ideal.ieee, -EReal.coe_mul]; norm_num

theorem c64_pos : (0 : EReal) < Cert.Spec.c64 := by
  rw [c64_eq]; exact EReal.coe_pos.mpr (by norm_num)

/-! ## Mean, variance and normalisation of any array of rows -/

section Rows
variable (u : FVec Ideal S50000x64 .f32)

/-- A row's sum at (r, 0). -/
theorem rowSum_apply (r : Fin 50000) : rowSum (F := Ideal) u (ix2 r (0 : Fin 1)) = ∑ j : Fin 64, u (ix2 r j) := by
  unfold rowSum
  rw [bcast_keep, reduce_row]

/-- A row's mean at (r, 0) is the specification's mean of the row. -/
theorem meanR_apply (r : Fin 50000) :
    meanR (F := Ideal) u (ix2 r (0 : Fin 1)) = Cert.Spec.mean (fun j => u (ix2 r j)) := by
  unfold meanR
  show Ideal.div (rowSum (F := Ideal) u (ix2 r (0 : Fin 1)))
    (broadcastInDim S50000x1 ![] _ (constant (F := Ideal) S_ .f32 0x42800000#32) (ix2 r (0 : Fin 1))) = _
  rw [rowSum_apply, bcast_scalar]
  rfl

/-- A row minus its mean, at (r, j). -/
theorem centR_apply (r : Fin 50000) (j : Fin 64) :
    centR (F := Ideal) u (ix2 r j) = u (ix2 r j) - Cert.Spec.mean (fun j' => u (ix2 r j')) := by
  unfold centR
  rw [subf_apply, bcast_col, meanR_apply]

/-- The variance's divisor, 64 minus zero converted, is 64. -/
theorem cntR_apply : cntR (F := Ideal) ix0 = Cert.Spec.c64 := by
  unfold cntR
  show Ideal.ofBits .f32 0x42800000#32 - (((0#32 : BitVec 32).toInt : ℝ) : EReal) = _
  rw [BitVec.toInt_zero, Int.cast_zero, EReal.coe_zero, sub_zero]

/-- A row's variance at (r, 0): the divisor is positive, so it is the mean of the squared deviations. -/
theorem varR_apply (r : Fin 50000) :
    varR (F := Ideal) u (ix2 r (0 : Fin 1))
      = Cert.Spec.mean (fun j => (u (ix2 r j) - Cert.Spec.mean (fun j' => u (ix2 r j')))
          * (u (ix2 r j) - Cert.Spec.mean (fun j' => u (ix2 r j')))) := by
  unfold varR
  rw [select_apply, bcast_scalar, cmpf_apply, cntR_apply]
  have hc : FloatOps.cmpf (F := Ideal) .ogt (Cert.Spec.c64 : Ideal .f32) (constant (F := Ideal) S_ .f32 0x00000000#32 ix0) = 1#1 := by
    show Ideal.cmp .ogt Cert.Spec.c64 (Ideal.ofBits .f32 0x00000000#32) = 1#1
    rw [Ideal.ofBits_zero_f32]
    show BitVec.ofBool (decide ((0 : EReal) < Cert.Spec.c64)) = 1#1
    rw [decide_eq_true c64_pos]; rfl
  rw [hc, select_one]
  show Ideal.div (rowSum (F := Ideal) (mulf (centR (F := Ideal) u) (centR (F := Ideal) u)) (ix2 r (0 : Fin 1)))
    (broadcastInDim S50000x1 ![] _ (cntR (F := Ideal)) (ix2 r (0 : Fin 1))) = _
  rw [rowSum_apply, bcast_scalar, cntR_apply]
  unfold Cert.Spec.mean
  refine congrArg (fun s => Ideal.div s Cert.Spec.c64) (Finset.sum_congr rfl fun j _ => ?_)
  rw [mulf_apply, centR_apply]
  rfl

/-- The normalised, scaled and shifted rows at (r, q) are the specification's normalisation of row r at q. -/
theorem normR_apply (ga be : FVec Ideal S64 .f32) (r : Fin 50000) (q : Fin 64) :
    normR (F := Ideal) u ga be (ix2 r q) = Cert.Spec.norm (fun j => u (ix2 r j)) (ga (ix1 q)) (be (ix1 q)) q := by
  unfold normR
  rw [addf_apply, mulf_apply, mulf_apply, subf_apply, bcast_col, bcast_col, bcast_row, bcast_row, meanR_apply]
  show _ * Ideal.rsqrt (varR (F := Ideal) u (ix2 r (0 : Fin 1))
      + broadcastInDim S50000x1 ![] _ (constant (F := Ideal) S_ .f32 0x3727C5AC#32) (ix2 r (0 : Fin 1))) * _ + _ = _
  rw [varR_apply, bcast_scalar]
  rfl

end Rows

/-! ## The update before normalisation, read at an index -/

/-- Relu of the affine form of "own row, then aggregated row", at (r, j). -/
theorem actR_apply (nf A : FVec Ideal S50000x64 .f32) (Wu : FVec Ideal S128x64 .f32) (bu : FVec Ideal S64 .f32)
    (r : Fin 50000) (j : Fin 64) :
    actR (F := Ideal) nf A Wu bu (ix2 r j) = max (Cert.Spec.lin nf A Wu bu r j) 0 := by
  unfold actR
  rw [maximumf_apply, addf_apply, bcast_row, bcast_scalar, dotU_apply, Cert.Spec.sum_split]
  show max (_ + _ + _) (Ideal.ofBits .f32 0x00000000#32) = _
  rw [Ideal.ofBits_zero_f32]
  unfold Cert.Spec.lin
  congr 3
  · exact Finset.sum_congr rfl fun k _ => by rw [cat_lo]
  · exact Finset.sum_congr rfl fun k _ => by rw [cat_hi]

/-- The reference's update of every node is the specification's. -/
theorem normAct_eq (nf A : FVec Ideal S50000x64 .f32) (Wu : FVec Ideal S128x64 .f32) (bu ga be : FVec Ideal S64 .f32) :
    normR (F := Ideal) (actR nf A Wu bu) ga be = Cert.Spec.out nf A Wu bu ga be := by
  funext i
  obtain ⟨r, q, rfl⟩ : ∃ (r : Fin 50000) (q : Fin 64), i = ix2 r q := ⟨i 0, i 1, eq_ix2 i⟩
  rw [normR_apply]
  show _ = Cert.Spec.norm (fun j => max (Cert.Spec.lin nf A Wu bu r j) 0) (ga (ix1 q)) (be (ix1 q)) q
  exact congrArg (fun f => Cert.Spec.norm f (ga (ix1 q)) (be (ix1 q)) q) (funext fun j => actR_apply nf A Wu bu r j)

end Cert.ReferenceIdeal.RNorm

end
-- ==== Proof.lean ====
/-
  One graph-convolution layer, a kernel program against its reference, equal over the extended reals.

  Both programs read the node features (50000 nodes, 64 features), an edge list of 800000 (source, destination)
  pairs, a message weight and bias, an update weight and bias, and a scale and shift. The reference gathers the
  two endpoint rows of every edge, multiplies the 128 gathered numbers by the message weight, adds the bias and
  applies relu; sums the messages into their destination nodes; multiplies "own row, then aggregated row" by the
  update weight, adds the bias, applies relu, and normalises each node's 64 results (mean, variance, reciprocal
  square root of the shifted variance), scaled and shifted. The kernel program multiplies every node's row by the
  two halves of the message weight first (one launch over five blocks of 10000 rows), gathers the two projected
  rows of every edge with a guarded lookup, adds them and the bias, applies relu, sums into destination nodes, and
  computes the normalised update in a second launch over five blocks of 10000 rows with the update weight given
  as its two halves.

  The two agree because a 128-long contraction is the sum of its two 64-long halves — associativity and
  commutativity of addition, which hold on the extended reals without any finiteness — and because, on an edge
  list whose entries are node numbers (the added precondition), the guarded lookup is the plain lookup. Outside
  that domain the reference's lookup clamps the index while the kernel program's lookup answers a not-a-number
  word, which the ideal instance reads as the bottom element; the claim is stated on the domain.

  The frames of the two kernel programs are the generated ones; the reference's frame is its run with the result
  dropped; no rewrite was applied in idealizing the kernel program, so there is nothing to preserve.
-/
import proofs.«417284_j90692529422948_2_alg».proof.Defs
import proofs.«417284_j90692529422948_2_alg».proof.Proof.Gen.Kernel
import proofs.«417284_j90692529422948_2_alg».proof.Proof.Gen.Kernel.Skeleton
import proofs.«417284_j90692529422948_2_alg».proof.Proof.Gen.Kernel.Launch
import proofs.«417284_j90692529422948_2_alg».proof.Proof.Gen.Kernel.Points
import proofs.«417284_j90692529422948_2_alg».proof.Proof.Gen.Kernel.Frame
import proofs.«417284_j90692529422948_2_alg».proof.Proof.Gen.KernelIdeal
import proofs.«417284_j90692529422948_2_alg».proof.Proof.Gen.KernelIdeal.Skeleton
import proofs.«417284_j90692529422948_2_alg».proof.Proof.Gen.KernelIdeal.Launch
import proofs.«417284_j90692529422948_2_alg».proof.Proof.Gen.KernelIdeal.Points
import proofs.«417284_j90692529422948_2_alg».proof.Proof.Gen.KernelIdeal.Frame
import proofs.«417284_j90692529422948_2_alg».proof.Proof.Gen.ReferenceIdeal
import proofs.«417284_j90692529422948_2_alg».proof.Proof.Gen.Pre_finite_inputs
import proofs.«417284_j90692529422948_2_alg».proof.Proof.Spec
import proofs.«417284_j90692529422948_2_alg».proof.Proof.Bridge
import proofs.«417284_j90692529422948_2_alg».proof.Proof.PreDecode
import proofs.«417284_j90692529422948_2_alg».proof.Proof.KRun
import proofs.«417284_j90692529422948_2_alg».proof.Proof.KValue
import proofs.«417284_j90692529422948_2_alg».proof.Proof.RRun
import proofs.«417284_j90692529422948_2_alg».proof.Proof.RMsg
import proofs.«417284_j90692529422948_2_alg».proof.Proof.RNorm
import Idealize.ShloMosaic.Adequacy
import Idealize.ShloMosaic.Init

noncomputable section

namespace Cert.Proof

open Idealize.ShloMosaic Idealize.SL.Sem

/-- The kernel program at the word level runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.RRun.run (F := Ideal) m ρ)

/-- On memories that agree on the arguments, with the edge list holding node numbers only, both programs end with
    the specification's update of the node features and the specification's aggregate of the specification's
    messages. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0)) (Cert.KernelIdeal.KValue.agg m c) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.result m ρ c (Cert.PreDecode.inRange_of_pre m hpre c)), (h c).2⟩)
      (Cert.KernelIdeal.KRun.run (F := Ideal) m ρ)
  · refine (θ_run Cert.ReferenceIdeal.defs _ _).mono (fun r h c => ⟨(h c).1.trans ?_, (h c).2⟩)
      (Cert.ReferenceIdeal.RRun.run (F := Ideal) m' ρ')
    obtain ⟨h0, h1, h2, h3, h4, h5, h6, h7⟩ := hagree c
    show _ = Cert.Spec.out (m ((c.tc : Thread Cert.KernelIdeal.nD Cert.KernelIdeal.τ).loc Cert.KernelIdeal.main_arg0)) (Cert.KernelIdeal.KValue.agg m c) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    rw [h0, h1, h2, h3, h4, h5, h6, h7]
    unfold Cert.ReferenceIdeal.Terms.resOut Cert.KernelIdeal.KValue.agg
    rw [Cert.ReferenceIdeal.RNorm.normAct_eq, Cert.ReferenceIdeal.RMsg.msgR_eq, Cert.Bridge.colOf_dst,
      Cert.Bridge.start_src, Cert.Bridge.start_dst, Cert.Bridge.agg_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
